-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v22)) (v1 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_v26) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096 : Shape := ⟨1, ![4096]⟩
abbrev S8192x4096 : Shape := ⟨2, ![8192, 4096]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel
  bcast_S_S8192x4096 : S_.BroadcastsInDim S8192x4096 (![] : Fin 0 → Fin S8192x4096.rank)
  reducesTo_S8192x4096_S_d0_1 : S8192x4096.ReducesTo [0, 1] S_

variable [Facts]

def fn {F : FTy → Type} [FloatOps F] (main_arg0 : FVec F S4096 .f32) (main_arg1 : FVec F S8192x4096 .f32) : IVec S_ 1 :=
  let main_v0 : FVec F S4096 .f32 := Host.absf main_arg0
  let main_cst : FVec F S_ .f32 := constant S_ .f32 0x7F800000#32
  let main_v1 : FVec F S4096 .f32 := broadcastInDim S4096 ![] bcast_S_S4096 main_cst
  let main_v2 : IVec S4096 1 := cmpf .olt main_v0 main_v1
  let main_c : IVec S_ 1 := constantI S_ 1 1#1
  let main_v3 : IVec S_ 1 := (fun x v => Host.reduce IntOp.andi x v reducesTo_S4096_S_d0 h_S_) main_v2 main_c
  let main_v4 : FVec F S8192x4096 .f32 := Host.absf main_arg1
  let main_cst_0 : FVec F S_ .f32 := constant S_ .f32 0x7F800000#32
  let main_v5 : FVec F S8192x4096 .f32 := broadcastInDim S8192x4096 ![] bcast_S_S8192x4096 main_cst_0
  let main_v6 : IVec S8192x4096 1 := cmpf .olt main_v4 main_v5
  let main_c_1 : IVec S_ 1 := constantI S_ 1 1#1
  let main_v7 : IVec S_ 1 := (fun x v => Host.reduce IntOp.andi x v reducesTo_S8192x4096_S_d0_1 h_S_) main_v6 main_c_1
  let main_v8 : IVec S_ 1 := andi main_v3 main_v7
  main_v8
-- ==== Kernel.lean ====
abbrev S4096 : Shape := ⟨1, ![4096]⟩
abbrev S8192x4096 : Shape := ⟨2, ![8192, 4096]⟩
abbrev S1x4096 : Shape := ⟨2, ![1, 4096]⟩
abbrev S512x4096 : Shape := ⟨2, ![512, 4096]⟩
abbrev S_ : Shape := ⟨0, ![]⟩
abbrev S12288x4096 : Shape := ⟨2, ![12288, 4096]⟩
abbrev S128x4096 : Shape := ⟨2, ![128, 4096]⟩

abbrev nBuf : Space → Nat
  | .hbm => 41
  | .vmem => 10
  | .smem => 0
  | _ => 0

abbrev bufTy : (tb : Table) → Fin (tcTables nBuf tb) → BufTy
  | .hbm, ⟨0, _⟩ => ⟨S4096, .f32⟩
  | .hbm, ⟨1, _⟩ => ⟨S8192x4096, .f32⟩
  | .hbm, ⟨2, _⟩ => ⟨S1x4096, .f32⟩
  | .hbm, ⟨3, _⟩ => ⟨S4096, .f32⟩
  | .hbm, ⟨4, _⟩ => ⟨S4096, .f32⟩
  | .hbm, ⟨5, _⟩ => ⟨S4096, .f32⟩
  | .hbm, ⟨6, _⟩ => ⟨S_, .f32⟩
  | .hbm, ⟨7, _⟩ => ⟨S4096, .f32⟩
  | .hbm, ⟨8, _⟩ => ⟨S4096, .i1⟩
  | .hbm, ⟨9, _⟩ => ⟨S_, .f32⟩
  | .hbm, ⟨10, _⟩ => ⟨S4096, .f32⟩
  | .hbm, ⟨11, _⟩ => ⟨S4096, .i1⟩
  | .hbm, ⟨12, _⟩ => ⟨S4096, .i1⟩
  | .hbm, ⟨13, _⟩ => ⟨S_, .f32⟩
  | .hbm, ⟨14, _⟩ => ⟨S4096, .f32⟩
  | .hbm, ⟨15, _⟩ => ⟨S4096, .i1⟩
  | .hbm, ⟨16, _⟩ => ⟨S4096, .f32⟩
  | .hbm, ⟨17, _⟩ => ⟨S_, .f32⟩
  | .hbm, ⟨18, _⟩ => ⟨S4096, .f32⟩
  | .hbm, ⟨19, _⟩ => ⟨S4096, .f32⟩
  | .hbm, ⟨20, _⟩ => ⟨S4096, .f32⟩
  | .hbm, ⟨21, _⟩ => ⟨S_, .f32⟩
  | .hbm, ⟨22, _⟩ => ⟨S4096, .f32⟩
  | .hbm, ⟨23, _⟩ => ⟨S4096, .f32⟩
  | .hbm, ⟨24, _⟩ => ⟨S4096, .f32⟩
  | .hbm, ⟨25, _⟩ => ⟨S4096, .f32⟩
  | .hbm, ⟨26, _⟩ => ⟨S_, .f32⟩
  | .hbm, ⟨27, _⟩ => ⟨S4096, .f32⟩
  | .hbm, ⟨28, _⟩ => ⟨S4096, .f32⟩
  | .hbm, ⟨29, _⟩ => ⟨S_, .f32⟩
  | .hbm, ⟨30, _⟩ => ⟨S4096, .f32⟩
  | .hbm, ⟨31, _⟩ => ⟨S4096, .f32⟩
  | .hbm, ⟨32, _⟩ => ⟨S4096, .f32⟩
  | .hbm, ⟨33, _⟩ => ⟨S4096, .f32⟩
  | .hbm, ⟨34, _⟩ => ⟨S4096, .f32⟩
  | .hbm, ⟨35, _⟩ => ⟨S_, .f32⟩
  | .hbm, ⟨36, _⟩ => ⟨S4096, .f32⟩
  | .hbm, ⟨37, _⟩ => ⟨S4096, .f32⟩
  | .hbm, ⟨38, _⟩ => ⟨S1x4096, .f32⟩
  | .hbm, ⟨39, _⟩ => ⟨S1x4096, .f32⟩
  | .hbm, ⟨40, _⟩ => ⟨S12288x4096, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S1x4096, .f32⟩
  | .local _ .vmem, ⟨4, _⟩ => ⟨S128x4096, .f32⟩
  | .local _ .vmem, ⟨5, _⟩ => ⟨S128x4096, .f32⟩
  | .local _ .vmem, ⟨6, _⟩ => ⟨S1x4096, .f32⟩
  | .local _ .vmem, ⟨7, _⟩ => ⟨S1x4096, .f32⟩
  | .local _ .vmem, ⟨8, _⟩ => ⟨S128x4096, .f32⟩
  | .local _ .vmem, ⟨9, _⟩ => ⟨S128x4096, .f32⟩
  | _, _ => ⟨S4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_2 : Ref sig .tc := ⟨.hbm, 17, rfl⟩
abbrev main_call0_v0 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_call1_v0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_call2_v0 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_6 : Ref sig .tc := ⟨.hbm, 35, rfl⟩
abbrev main_call4_v0 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg3_1 : Ref sig .tc := ⟨.vmem, 9, rfl⟩
abbrev cc0_sem0_0 : DmaSem sig := 0
abbrev cc0_sem0_1 : DmaSem sig := 1
abbrev cc0_sem1_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem3_1 : DmaSem sig := 8

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v12 : BitVec 1 := Scalar.cmpi .eq arg0 c15_i32
  let v13 : BitVec 32 := Scalar.extui v12
  let c0_i32_6 : BitVec 32 := 0#32
  let v14 : BitVec 1 := Scalar.cmpi .ne v13 c0_i32_6
  v14

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![96], ![false]⟩

def k1_cond1 (i : grid1.Coords) : BitVec 1 :=
  let arg0 : BitVec 32 := BitVec.ofNat 32 (i 0).val
  let c64_i32 : BitVec 32 := 64#32
  let v0 : BitVec 1 := Scalar.cmpi .slt arg0 c64_i32
  let v1 : BitVec 32 := Scalar.extui v0
  let c0_i32 : BitVec 32 := 0#32
  let v2 : BitVec 1 := Scalar.cmpi .ne v1 c0_i32
  v2

def k1_cond2 (i : grid1.Coords) : BitVec 1 :=
  let arg0 : BitVec 32 := BitVec.ofNat 32 (i 0).val
  let c64_i32_0 : BitVec 32 := 64#32
  let v3 : BitVec 1 := Scalar.cmpi .sge arg0 c64_i32_0
  let v4 : BitVec 32 := Scalar.extui v3
  let c0_i32_1 : BitVec 32 := 0#32
  let v5 : BitVec 1 := Scalar.cmpi .ne v4 c0_i32_1
  v5

def cc1_transform_0 (i : grid1.Coords) : Fin 2 → Nat :=
  let arg0 : BitVec 32 := BitVec.ofNat 32 (i 0).val
  let c64_i32 : BitVec 32 := 64#32
  let v0 : BitVec 1 := Scalar.cmpi .slt arg0 c64_i32
  let c0_i32 : BitVec 32 := 0#32
  let v1 : BitVec 32 := Scalar.select v0 arg0 c0_i32
  let c0_i32_0 : BitVec 32 := 0#32
  let c0_i32_1 : BitVec 32 := 0#32
  ![v1.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S128x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  inb_S512x4096_S512x4096_0_0 : ∀ a, (![0, 0] : Fin 2 → Nat) a + S512x4096.size a ≤ S512x4096.size a
  h_S512x4096 : 0 < S512x4096.numel
  reduces_S512x4096_S4096 : S512x4096.Reduces [0] S4096
  shapeCasts_S4096_S1x4096 : S4096.ShapeCasts S1x4096
  shapeCasts_S1x4096_S4096 : S1x4096.ShapeCasts S4096
  bcast_S_S4096 : S_.BroadcastsInDim S4096 (![] : Fin 0 → Fin S4096.rank)
  inb_S128x4096_S128x4096_0_0 : ∀ a, (![0, 0] : Fin 2 → Nat) a + S128x4096.size a ≤ S128x4096.size a
  h_S128x4096 : 0 < S128x4096.numel
  broadcasts_S1x4096_S128x4096 : S1x4096.Broadcasts S128x4096
  iota_S128x4096_d0_w32 : S128x4096.Iotas .tc 32 [0]
  iota_S128x4096_d1_w32 : S128x4096.Iotas .tc 32 [1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x4096.size a
  hwx0_1 : ∀ i : grid0.Coords, EltTy.bits .f32 = 32 ∨ (Rect.block (s := S1x4096) S1x4096.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x4096.size a ≤ S8192x4096.size a
  hwx1_0 : ∀ i : grid1.Coords, EltTy.bits .f32 = 32 ∨ (Rect.block (s := S8192x4096) S128x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x4096.size a ≤ S1x4096.size a
  hwx1_1 : ∀ i : grid1.Coords, EltTy.bits .f32 = 32 ∨ (Rect.block (s := S1x4096) S1x4096.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x4096.size a ≤ S1x4096.size a
  hwx1_2 : ∀ i : grid1.Coords, EltTy.bits .f32 = 32 ∨ (Rect.block (s := S1x4096) S1x4096.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S128x4096.size a ≤ S12288x4096.size a
  hwx1_3 : ∀ i : grid1.Coords, EltTy.bits .f32 = 32 ∨ (Rect.block (s := S12288x4096) S128x4096.size (cc1_transform_3 i) (hinb1_3 i)).WholeWords (EltTy.packing .f32)

variable [Facts₀]

abbrev win0_0 : Pipeline.Window sig grid0 :=
  Pipeline.Window.ofSpec (Memref.whole main_arg1) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x4096.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_arg1) S128x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S1x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v25) S1x4096.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v26) S128x4096.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond1 i == 1#1) && !(k1_cond2 i == 1#1) | ⟨_ + 4, h⟩ => absurd h (Nat.not_lt.2 (Nat.le_add_left _ _))

class Facts : Prop extends Facts₀ where

variable [Facts]
-- ==== ReferenceIdeal.lean ====
abbrev S4096 : Shape := ⟨1, ![4096]⟩
abbrev S8192x4096 : Shape := ⟨2, ![8192, 4096]⟩
abbrev S_ : Shape := ⟨0, ![]⟩
abbrev S1x4096 : Shape := ⟨2, ![1, 4096]⟩
abbrev S4096x4096 : Shape := ⟨2, ![4096, 4096]⟩
abbrev S4096x1 : Shape := ⟨2, ![4096, 1]⟩
abbrev S12288x4096 : Shape := ⟨2, ![12288, 4096]⟩

abbrev nBuf : Space → Nat
  | .hbm => 56
  | .vmem => 0
  | .smem => 0
  | _ => 0

abbrev bufTy : (tb : Table) → Fin (tcTables nBuf tb) → BufTy
  | .hbm, ⟨0, _⟩ => ⟨S4096, .f32⟩
  | .hbm, ⟨1, _⟩ => ⟨S8192x4096, .f32⟩
  | .hbm, ⟨2, _⟩ => ⟨S8192x4096, .f32⟩
  | .hbm, ⟨3, _⟩ => ⟨S_, .f32⟩
  | .hbm, ⟨4, _⟩ => ⟨S4096, .f32⟩
  | .hbm, ⟨5, _⟩ => ⟨S4096, .f32⟩
  | .hbm, ⟨6, _⟩ => ⟨S4096, .f32⟩
  | .hbm, ⟨7, _⟩ => ⟨S_, .f32⟩
  | .hbm, ⟨8, _⟩ => ⟨S4096, .f32⟩
  | .hbm, ⟨9, _⟩ => ⟨S4096, .i1⟩
  | .hbm, ⟨10, _⟩ => ⟨S_, .f32⟩
  | .hbm, ⟨11, _⟩ => ⟨S4096, .f32⟩
  | .hbm, ⟨12, _⟩ => ⟨S4096, .i1⟩
  | .hbm, ⟨13, _⟩ => ⟨S4096, .i1⟩
  | .hbm, ⟨14, _⟩ => ⟨S_, .f32⟩
  | .hbm, ⟨15, _⟩ => ⟨S4096, .f32⟩
  | .hbm, ⟨16, _⟩ => ⟨S4096, .i1⟩
  | .hbm, ⟨17, _⟩ => ⟨S4096, .f32⟩
  | .hbm, ⟨18, _⟩ => ⟨S_, .f32⟩
  | .hbm, ⟨19, _⟩ => ⟨S4096, .f32⟩
  | .hbm, ⟨20, _⟩ => ⟨S4096, .f32⟩
  | .hbm, ⟨21, _⟩ => ⟨S4096, .f32⟩
  | .hbm, ⟨22, _⟩ => ⟨S_, .f32⟩
  | .hbm, ⟨23, _⟩ => ⟨S4096, .f32⟩
  | .hbm, ⟨24, _⟩ => ⟨S4096, .f32⟩
  | .hbm, ⟨25, _⟩ => ⟨S4096, .f32⟩
  | .hbm, ⟨26, _⟩ => ⟨S4096, .f32⟩
  | .hbm, ⟨27, _⟩ => ⟨S_, .f32⟩
  | .hbm, ⟨28, _⟩ => ⟨S4096, .f32⟩
  | .hbm, ⟨29, _⟩ => ⟨S4096, .f32⟩
  | .hbm, ⟨30, _⟩ => ⟨S_, .f32⟩
  | .hbm, ⟨31, _⟩ => ⟨S4096, .f32⟩
  | .hbm, ⟨32, _⟩ => ⟨S4096, .f32⟩
  | .hbm, ⟨33, _⟩ => ⟨S4096, .f32⟩
  | .hbm, ⟨34, _⟩ => ⟨S4096, .f32⟩
  | .hbm, ⟨35, _⟩ => ⟨S4096, .f32⟩
  | .hbm, ⟨36, _⟩ => ⟨S_, .f32⟩
  | .hbm, ⟨37, _⟩ => ⟨S4096, .f32⟩
  | .hbm, ⟨38, _⟩ => ⟨S4096, .f32⟩
  | .hbm, ⟨39, _⟩ => ⟨S1x4096, .f32⟩
  | .hbm, ⟨40, _⟩ => ⟨S8192x4096, .f32⟩
  | .hbm, ⟨41, _⟩ => ⟨S8192x4096, .f32⟩
  | .hbm, ⟨42, _⟩ => ⟨S_, .f32⟩
  | .hbm, ⟨43, _⟩ => ⟨S4096, .f32⟩
  | .hbm, ⟨44, _⟩ => ⟨S4096x4096, .i32⟩
  | .hbm, ⟨45, _⟩ => ⟨S4096x4096, .i32⟩
  | .hbm, ⟨46, _⟩ => ⟨S_, .i32⟩
  | .hbm, ⟨47, _⟩ => ⟨S4096x4096, .i32⟩
  | .hbm, ⟨48, _⟩ => ⟨S4096x4096, .i32⟩
  | .hbm, ⟨49, _⟩ => ⟨S4096x4096, .i1⟩
  | .hbm, ⟨50, _⟩ => ⟨S4096x1, .f32⟩
  | .hbm, ⟨51, _⟩ => ⟨S_, .f32⟩
  | .hbm, ⟨52, _⟩ => ⟨S4096x4096, .f32⟩
  | .hbm, ⟨53, _⟩ => ⟨S4096x4096, .f32⟩
  | .hbm, ⟨54, _⟩ => ⟨S4096x4096, .f32⟩
  | .hbm, ⟨55, _⟩ => ⟨S12288x4096, .f32⟩
  | _, _ => ⟨S4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_call0_v0 : Ref sig .tc := ⟨.hbm, 19, rfl⟩
abbrev main_v12 : Ref sig .tc := ⟨.hbm, 20, rfl⟩
abbrev main_v13 : Ref sig .tc := ⟨.hbm, 21, rfl⟩
abbrev main_cst_4 : Ref sig .tc := ⟨.hbm, 22, rfl⟩
abbrev main_call1_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_call2_v0 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_call4_v0 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_call5_cst : Ref sig .tc := ⟨.hbm, 42, rfl⟩
abbrev main_call5_v0 : Ref sig .tc := ⟨.hbm, 43, rfl⟩
abbrev main_call5_v1 : Ref sig .tc := ⟨.hbm, 44, rfl⟩
abbrev main_call5_v2 : Ref sig .tc := ⟨.hbm, 45, rfl⟩
abbrev main_call5_c : Ref sig .tc := ⟨.hbm, 46, rfl⟩
abbrev main_call5_v3 : Ref sig .tc := ⟨.hbm, 47, rfl⟩
abbrev main_call5_v4 : Ref sig .tc := ⟨.hbm, 48, rfl⟩
abbrev main_call5_v5 : Ref sig .tc := ⟨.hbm, 49, rfl⟩
abbrev main_call5_v6 : Ref sig .tc := ⟨.hbm, 50, rfl⟩
abbrev main_call5_cst_0 : Ref sig .tc := ⟨.hbm, 51, rfl⟩
abbrev main_call5_call0_v0 : Ref sig .tc := ⟨.hbm, 52, rfl⟩
abbrev main_call5_call0_v1 : Ref sig .tc := ⟨.hbm, 53, rfl⟩
abbrev main_v27 : Ref sig .tc := ⟨.hbm, 54, rfl⟩
abbrev main_v28 : Ref sig .tc := ⟨.hbm, 55, rfl⟩

abbrev nD : Nat := 1
abbrev τ : Topo := Topo.v7x

variable {F : FTy → Type} [FloatOps F]

class Facts₀ : Prop where
  reducesTo_S8192x4096_S4096_d0 : S8192x4096.ReducesTo [0] S4096
  h_S_ : 0 < S_.numel
  bcast_S_S4096 : S_.BroadcastsInDim S4096 (![] : Fin 0 → Fin S4096.rank)
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  pads_S4096_S4096_000 : S4096.Pads (![0] : Fin 1 → Nat) ![0] ![0] S4096
  bcast_S_S4096x4096 : S_.BroadcastsInDim S4096x4096 (![] : Fin 0 → Fin S4096x4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  concatenates_S8192x4096_S4096x4096_S12288x4096_d0 : Shape.Concatenates [S8192x4096, S4096x4096] S12288x4096 0

variable [Facts₀]

class Facts : Prop extends Facts₀ where

variable [Facts]
-- ==== Proof.K.Region0.lean ====
/-
  The first kernel region: the column radius  a_j = sum_i |e_ij|  accumulated over 16 row tiles of 512 rows.
  A scratch row carries the running sum from one grid point to the next: point 0 resets it to zero, every
  point adds the column sums of |.| over its own 512 rows, and the last point copies it to the output row.
  Stated at a PARAMETER `V`: the buffer contents the region is entered from.
-/
import proofs.«176906_j7138235646107_1_alg».proof.Proof.Gen.Kernel.Launch
import proofs.«176906_j7138235646107_1_alg».proof.Proof.Gen.Kernel.Skeleton
import proofs.«176906_j7138235646107_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The running sum the scratch row holds after grid point `n`: the reset row plus the first tile's column sums at
    point 0, then the row before plus tile `n`'s column sums. -/
def acc0 (c : Dev nD) : (n : ℕ) → n < cfg0.N → Vec F S1x4096 .f32
  | 0, h => k0_pay2 (k0_pay1 (F := F)) (iblk0 V c 0 ⟨0, h⟩)
  | n + 1, h => k0_pay2 (acc0 c n (Nat.lt_of_succ_lt h)) (iblk0 V c 0 ⟨n + 1, h⟩)

/-- The scratch row as a whole memref. -/
abbrev scM0 : Memref sig .tc .vmem S1x4096 .f32 := Memref.whole cc0_scratch0

/-- The scoped buffers of the core that this region neither stages nor uses: the second region's staging buffers. -/
def others0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f))

/-- The region's invariant before grid point `n`: before the first point everything scoped at anything; afterwards
    the scratch row at the running sum of the points so far. -/
def PhiS0 (c : Dev nD) : (n : ℕ) → n ≤ cfg0.N → sProp 𝕄
  | 0, _ => Pipeline.ΦA spec0 c
  | n + 1, hn => iprop((owns (c : Thread nD τ) scM0 fullShare (acc0 V c n hn) ∗ others0 c) ∗ (∃ r, prngReg c r))

/-- The proof data of the first pipeline: the arrays as found, each input's buffer at its block, the output row's
    buffer at the running sum, the invariant above, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => acc0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = acc0 V c t.val t.isLt := by dsimp only [dat0]

/-! ## The body's branch conditions, decided over the grid -/

/-- The reset condition of the body, from the grid coordinate. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val = 0 :=
  (by decide +kernel : ∀ t : Fin grid0.N, cond0_0 (grid0.coords t) ↔ t.val = 0)

/-- The write-out condition of the body. -/
abbrev cond0_1 (i : grid0.Coords) : Prop := k0_cond2 i = 1#1
/-- It holds at the last point only. -/
theorem hcond0_1 : ∀ t : Fin cfg0.N, cond0_1 (grid0.coords t) ↔ t.val = 15 :=
  (by decide +kernel : ∀ t : Fin grid0.N, cond0_1 (grid0.coords t) ↔ t.val = 15)

/-- The input window is never idle. -/
theorem liveAt0_0 : ∀ t : Fin cfg0.N, cfg0.idle 0 (grid0.coords t) = false := by decide +kernel
/-- Off the last point the output row is idle, -/
theorem idleAt0_1 : ∀ t : Fin cfg0.N, ¬cond0_1 (grid0.coords t) → cfg0.idle 1 (grid0.coords t) = true := by decide +kernel
/-- and not written back. -/
theorem noFlush0_1 : ∀ t : Fin cfg0.N, ¬cond0_1 (grid0.coords t) → (cfg0.win 1).flush t = false := by decide +kernel
/-- At the last point it is live. -/
theorem liveAt0_1 : ∀ t : Fin cfg0.N, cond0_1 (grid0.coords t) → cfg0.idle 1 (grid0.coords t) = false := by decide +kernel

/-- Each window's current staging memref at point `t`, and its wholeness. -/
abbrev ms0_0 (t : Fin cfg0.N) : Memref sig .tc .vmem S512x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x4096 .f32 := win0_1.stage (cfg0.slots t 1)
abbrev hs0_1 (t : Fin cfg0.N) : (ms0_1 t).IsWhole := hstage0_1 ((cfg0.slots t 1).cast nbuf0_1)

/-- The zero offsets of a whole-row access. -/
theorem hz2 : (![0, 0] : Fin 2 → ℕ) = fun _ => 0 := by funext a; fin_cases a <;> rfl

/-- What a store of a whole row, made last, leaves in the row: its payload, whatever was stored before. -/
theorem read_store_row {sg : RefSig} {κ : Kind} {sp : Space} (v : View sg κ sp S1x4096 .f32) (f : v.ty.Contents (Elt F))
    (w : Vec F S1x4096 .f32) (L : List (View.Piece (Elt F) S1x4096 .f32)) :
    v.read (Elt F) (v.writes (Elt F) f ((⟨Rect.unit ![0, 0] S1x4096.size inb_S1x4096_S1x4096_0_0, w⟩ : View.Piece (Elt F) S1x4096 .f32) :: L)) = w := by
  rw [View.read_writes_eq_canon _ _ _ (fun y => ⟨_, List.mem_cons_self .., View.mem_set_unit_zero hz2 inb_S1x4096_S1x4096_0_0 y⟩),
    View.canon_cons_unit_zero hz2]

set_option maxHeartbeats 1000000 in
/-- The body at a middle point: the scratch row goes from `s` to `s` plus the tile's column sums of absolute values; nothing else changes. -/
theorem run0_B (c : Dev nD) (i : grid0.Coords) (arg1 : Memref sig .tc .vmem S512x4096 .f32) (harg1 : arg1.IsWhole) (arg2 : Memref sig .tc .vmem S1x4096 .f32) (harg2 : arg2.IsWhole) (arg3 : Memref sig .tc .vmem S1x4096 .f32) (harg3 : arg3.IsWhole) (hc0 : ¬cond0_0 i) (hc1 : ¬cond0_1 i)
    (x : Vec F S512x4096 .f32) (d : Vec F S1x4096 .f32) (s : Vec F S1x4096 .f32) (E : Set ℕ) (K : PUnit → sProp 𝕄) :
    iprop(owns (c : Thread nD τ) arg1 fullShare x ∗ owns (c : Thread nD τ) arg2 fullShare d ∗ owns (c : Thread nD τ) arg3 fullShare s
        ∗ (iprop(owns (c : Thread nD τ) arg1 fullShare x ∗ owns (c : Thread nD τ) arg2 fullShare d ∗ owns (c : Thread nD τ) arg3 fullShare (k0_pay2 s x)) -∗ K ⟨⟩))
      ⊢ wp frame (wpE (defs₀ (F := F)) Variants.none c none) E (cc0_apt_kernel i arg1 harg1 arg2 harg2 arg3 harg3) K := by
  simp only [cc0_apt_kernel_eq_skeleton]; unfold cc0_apt_kernel_skel
  unfold owns
  iintro ⟨⟨%f1, %hf1, H1⟩, ⟨%f2, %hf2, H2⟩, ⟨%f3, %hf3, H3⟩, Hk⟩
  obtain rfl := harg1.eq_unread hf1; obtain rfl := harg2.eq_unread hf2; obtain rfl := harg3.eq_unread hf3
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  iexists _; isplitr
  swap; · iexact H3
  ipureintro
  sl_unfold_words
  rw [read_store_row]
  simp only [View.readAt_eq_ld, harg3.read_unread, harg1.read_unread, View.readCov_unit_zero (S := S1x4096) _ hz2, View.ld_unit_zero (S := S1x4096) hz2, View.ld_unit_zero (S := S512x4096) hz2]

set_option maxHeartbeats 1000000 in
/-- The body at the first point: the scratch row, at anything before, ends at the reset row plus the tile's column sums of absolute values. -/
theorem run0_A (c : Dev nD) (i : grid0.Coords) (arg1 : Memref sig .tc .vmem S512x4096 .f32) (harg1 : arg1.IsWhole) (arg2 : Memref sig .tc .vmem S1x4096 .f32) (harg2 : arg2.IsWhole) (arg3 : Memref sig .tc .vmem S1x4096 .f32) (harg3 : arg3.IsWhole) (hc0 : cond0_0 i) (hc1 : ¬cond0_1 i)
    (x : Vec F S512x4096 .f32) (d : Vec F S1x4096 .f32) (E : Set ℕ) (K : PUnit → sProp 𝕄) :
    iprop(owns (c : Thread nD τ) arg1 fullShare x ∗ owns (c : Thread nD τ) arg2 fullShare d ∗ (∃ s, owns (c : Thread nD τ) arg3 fullShare s)
        ∗ (iprop(owns (c : Thread nD τ) arg1 fullShare x ∗ owns (c : Thread nD τ) arg2 fullShare d ∗ owns (c : Thread nD τ) arg3 fullShare (k0_pay2 (k0_pay1 (F := F)) x)) -∗ K ⟨⟩))
      ⊢ wp frame (wpE (defs₀ (F := F)) Variants.none c none) E (cc0_apt_kernel i arg1 harg1 arg2 harg2 arg3 harg3) K := by
  simp only [cc0_apt_kernel_eq_skeleton]; unfold cc0_apt_kernel_skel
  unfold owns
  iintro ⟨⟨%f1, %hf1, H1⟩, ⟨%f2, %hf2, H2⟩, ⟨%s, %f3, -, H3⟩, Hk⟩
  obtain rfl := harg1.eq_unread hf1; obtain rfl := harg2.eq_unread hf2
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  iexists _; isplitr
  swap; · iexact H3
  ipureintro
  sl_unfold_words
  rw [read_store_row]
  simp only [View.readAt_eq_ld, harg3.read_unread, harg1.read_unread, View.readCov_unit_zero (S := S1x4096) _ hz2, View.ld_unit_zero (S := S1x4096) hz2, View.ld_unit_zero (S := S512x4096) hz2]

set_option maxHeartbeats 1000000 in
/-- The body at the last point: as at a middle point, and the output row ends at the scratch row's final contents. -/
theorem run0_C (c : Dev nD) (i : grid0.Coords) (arg1 : Memref sig .tc .vmem S512x4096 .f32) (harg1 : arg1.IsWhole) (arg2 : Memref sig .tc .vmem S1x4096 .f32) (harg2 : arg2.IsWhole) (arg3 : Memref sig .tc .vmem S1x4096 .f32) (harg3 : arg3.IsWhole) (hc0 : ¬cond0_0 i) (hc1 : cond0_1 i)
    (x : Vec F S512x4096 .f32) (d : Vec F S1x4096 .f32) (s : Vec F S1x4096 .f32) (E : Set ℕ) (K : PUnit → sProp 𝕄) :
    iprop(owns (c : Thread nD τ) arg1 fullShare x ∗ owns (c : Thread nD τ) arg2 fullShare d ∗ owns (c : Thread nD τ) arg3 fullShare s
        ∗ (iprop(owns (c : Thread nD τ) arg1 fullShare x ∗ owns (c : Thread nD τ) arg2 fullShare (k0_pay2 s x) ∗ owns (c : Thread nD τ) arg3 fullShare (k0_pay2 s x)) -∗ K ⟨⟩))
      ⊢ wp frame (wpE (defs₀ (F := F)) Variants.none c none) E (cc0_apt_kernel i arg1 harg1 arg2 harg2 arg3 harg3) K := by
  simp only [cc0_apt_kernel_eq_skeleton]; unfold cc0_apt_kernel_skel
  unfold owns
  iintro ⟨⟨%f1, %hf1, H1⟩, ⟨%f2, %hf2, H2⟩, ⟨%f3, %hf3, H3⟩, Hk⟩
  obtain rfl := harg1.eq_unread hf1; obtain rfl := harg2.eq_unread hf2; obtain rfl := harg3.eq_unread hf3
  sl_exec (disch := first | exact hc0 | exact hc1)
  sl_step
  iapply Hk
  isplitl [H1]
  · iexists _; isplitr; · ipureintro; exact harg1.read_unread _
    iexact H1
  isplitl [H2]
  · iexists _; isplitr
    swap; · iexact H2
    ipureintro
    sl_unfold_words
    rw [read_store_row]
    simp only [View.readAt_eq_ld, harg3.read_unread, harg1.read_unread, View.readCov_unit_zero (S := S1x4096) _ hz2, View.ld_unit_zero (S := S1x4096) hz2, View.ld_unit_zero (S := S512x4096) hz2]
  iexists _; isplitr
  swap; · iexact H3
  ipureintro
  sl_unfold_words
  rw [read_store_row]
  simp only [View.readAt_eq_ld, harg3.read_unread, harg1.read_unread, View.readCov_unit_zero (S := S1x4096) _ hz2, View.ld_unit_zero (S := S1x4096) hz2, View.ld_unit_zero (S := S512x4096) hz2]

/-! ## The running sum and the invariant, point by point -/

/-- At the first point the running sum is the reset row plus the first tile's column sums. -/
theorem acc0_zero (c : Dev nD) (t : Fin cfg0.N) (h0 : t.val = 0) :
    acc0 V c t.val t.isLt = k0_pay2 (k0_pay1 (F := F)) (iblk0 V c 0 t) := by
  obtain ⟨n, hn⟩ := t
  cases n with
  | zero => rfl
  | succ n => exact absurd h0 (Nat.succ_ne_zero n)

/-- At a later point it is the sum before plus this tile's column sums. -/
theorem acc0_pos (c : Dev nD) (t : Fin cfg0.N) (h0 : t.val ≠ 0) :
    acc0 V c t.val t.isLt = k0_pay2 (acc0 V c (t.val - 1) (Nat.lt_of_le_of_lt (Nat.sub_le _ _) t.isLt)) (iblk0 V c 0 t) := by
  obtain ⟨n, hn⟩ := t
  cases n with
  | zero => exact absurd rfl h0
  | succ n => rfl

theorem PhiS0_zero (c : Dev nD) (n : ℕ) (h : n ≤ cfg0.N) (hz : n = 0) : PhiS0 V c n h = Pipeline.ΦA spec0 c := by
  subst hz; rfl

/-- After point `n`: the scratch row at that point's running sum. -/
theorem PhiS0_succ (c : Dev nD) (n : ℕ) (hn : n < cfg0.N) :
    PhiS0 V c (n + 1) hn = iprop((owns (c : Thread nD τ) scM0 fullShare (acc0 V c n hn) ∗ others0 c) ∗ (∃ r, prngReg c r)) := rfl

/-- Before a point that is not the first: the scratch row at the running sum of the point before. -/
theorem PhiS0_pos (c : Dev nD) (n : ℕ) (h : n ≤ cfg0.N) (hz : n ≠ 0) :
    PhiS0 V c n h = iprop((owns (c : Thread nD τ) scM0 fullShare (acc0 V c (n - 1) (by omega)) ∗ others0 c) ∗ (∃ r, prngReg c r)) := by
  cases n with
  | zero => exact absurd rfl hz
  | succ n => rfl

/-- The invariant at a point's start, restated at the point's position. -/
theorem PhiS0_castSucc (c : Dev nD) (t : Fin cfg0.N) :
    (dat0 V c).Φ t.castSucc = PhiS0 V c t.val (Nat.le_of_lt t.isLt) := by
  dsimp only [dat0]; simp only [Fin.coe_castSucc]

/-- Everything scoped at anything, with the scratch row as a memref owned at some contents. -/
theorem PhiA0_eq (c : Dev nD) :
    (Pipeline.ΦA spec0 c : sProp 𝕄)
      = iprop(((∃ d, owns (c : Thread nD τ) scM0 fullShare d) ∗ others0 c) ∗ (∃ r, prngReg c r)) := by
  unfold Pipeline.ΦA; rw [scopedRest0_eq]; unfold others0; simp only [scM0, owns_whole]; try rfl

/-- The input tile's current staging buffer holds its block at every point. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point: the tile's buffer holds its block; the point is the first, the last or a middle one; the
    invariant hands the body the scratch row at the running sum before (at anything at the first point) and takes it
    back at this point's running sum; the output row's buffer is handed back untouched off the last point and ends at
    the final running sum there. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS0 V c (t.val + 1) t.isLt from rfl, PhiS0_succ]
  have hN : t.val < 16 := lt_of_lt_of_eq t.isLt (show cfg0.N = 16 from N_0)
  rw [show (dat0 V c).leavesExact 0 t = owns (c : Thread nD τ) (ms0_0 t) fullShare ((dat0 V c).after 0 t) from by
    unfold Dat.leavesExact; rw [liveAt0_0 t], after0_0]
  by_cases h0 : t.val = 0
  · have hc0 : cond0_0 (grid0.coords t) := (hcond0_0 t).mpr h0
    have hc1 : ¬cond0_1 (grid0.coords t) := fun h => by have := (hcond0_1 t).mp h; omega
    rw [Dat.leavesExact_idle (dat0 V c) 1 t (idleAt0_1 t hc1) (noFlush0_1 t hc1)]
    rw [PhiS0_castSucc V c t, PhiS0_zero V c _ _ h0, PhiA0_eq, acc0_zero V c t h0]
    iintro ⟨⟨⟨HS, Ho⟩, Hg⟩, Hw, ⟨%d0, H0⟩, ⟨%d1, H1⟩⟩
    iapply (run0_A c (grid0.coords t) (ms0_0 t) (hs0_0 t) (ms0_1 t) (hs0_1 t) scM0 (Memref.isWhole_whole _) hc0 hc1 (iblk0 V c 0 t) ((dat0 V c).before 1 t d1) Set.univ _)
    isplitl [H0]; · iexact H0
    isplitl [H1]; · iexact H1
    isplitl [HS]; · iexact HS
    iintro ⟨H0, H1, HS⟩
    isplitl [HS Ho Hg]
    · isplitl [HS Ho]
      · isplitl [HS]; · iexact HS
        iexact Ho
      iexact Hg
    isplitl [Hw]; · iexact Hw
    isplitl [H0]; · iexact H0
    iexists _; iexact H1
  · have hc0 : ¬cond0_0 (grid0.coords t) := fun h => h0 ((hcond0_0 t).mp h)
    by_cases h1 : t.val = 15
    · have hc1 : cond0_1 (grid0.coords t) := (hcond0_1 t).mpr h1
      rw [show (dat0 V c).leavesExact 1 t = owns (c : Thread nD τ) (ms0_1 t) fullShare ((dat0 V c).after 1 t) from by
        unfold Dat.leavesExact; rw [liveAt0_1 t hc1], after0_1]
      rw [PhiS0_castSucc V c t, PhiS0_pos V c _ _ h0, acc0_pos V c t h0]
      iintro ⟨⟨⟨HS, Ho⟩, Hg⟩, Hw, ⟨%d0, H0⟩, ⟨%d1, H1⟩⟩
      iapply (run0_C c (grid0.coords t) (ms0_0 t) (hs0_0 t) (ms0_1 t) (hs0_1 t) scM0 (Memref.isWhole_whole _) hc0 hc1 (iblk0 V c 0 t) ((dat0 V c).before 1 t d1) (acc0 V c (t.val - 1) (Nat.lt_of_le_of_lt (Nat.sub_le _ _) t.isLt)) Set.univ _)
      isplitl [H0]; · iexact H0
      isplitl [H1]; · iexact H1
      isplitl [HS]; · iexact HS
      iintro ⟨H0, H1, HS⟩
      isplitl [HS Ho Hg]
      · isplitl [HS Ho]
        · isplitl [HS]; · iexact HS
          iexact Ho
        iexact Hg
      isplitl [Hw]; · iexact Hw
      isplitl [H0]; · iexact H0
      iexact H1
    · have hc1 : ¬cond0_1 (grid0.coords t) := fun h => h1 ((hcond0_1 t).mp h)
      rw [Dat.leavesExact_idle (dat0 V c) 1 t (idleAt0_1 t hc1) (noFlush0_1 t hc1)]
      rw [PhiS0_castSucc V c t, PhiS0_pos V c _ _ h0, acc0_pos V c t h0]
      iintro ⟨⟨⟨HS, Ho⟩, Hg⟩, Hw, ⟨%d0, H0⟩, ⟨%d1, H1⟩⟩
      iapply (run0_B c (grid0.coords t) (ms0_0 t) (hs0_0 t) (ms0_1 t) (hs0_1 t) scM0 (Memref.isWhole_whole _) hc0 hc1 (iblk0 V c 0 t) ((dat0 V c).before 1 t d1) (acc0 V c (t.val - 1) (Nat.lt_of_le_of_lt (Nat.sub_le _ _) t.isLt)) Set.univ _)
      isplitl [H0]; · iexact H0
      isplitl [H1]; · iexact H1
      isplitl [HS]; · iexact HS
      iintro ⟨H0, H1, HS⟩
      isplitl [HS Ho Hg]
      · isplitl [HS Ho]
        · isplitl [HS]; · iexact HS
          iexact Ho
        iexact Hg
      isplitl [Hw]; · iexact Hw
      isplitl [H0]; · iexact H0
      iexists _; iexact H1

/-- The body obligation of the first region at every grid point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives everything scoped back: the running sum's name is forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS, Ho⟩, Hg⟩
  isplitl [HS Ho]
  · isplitl [HS]
    · iexists _; iexact HS
    iexact Ho
  iexact Hg

/-- After the last point the invariant gives everything scoped back at some contents. -/
theorem hout0 (c : Dev nD) : (dat0 V c).Φ (Fin.last cfg0.N) ⊢ Pipeline.ΦA spec0 c :=
  Phi_out0 V c _ (by rw [Fin.val_last]; have : cfg0.N = 16 := N_0; omega)

end Cert.Kernel.Hand

end
-- ==== Proof.K.Region1.lean ====
/-
  The second kernel region: the new generator matrix, 96 row tiles of 128 rows. The first 64 tiles are the rows
  of e scaled column by column; the last 32 tiles are the rows of diag(mu), written from the resident row mu by
  comparing a column index with the global row index. Stated at a PARAMETER `V`: the buffer contents the
  region is entered from.
-/
import proofs.«176906_j7138235646107_1_alg».proof.Proof.Gen.Kernel.Launch
import proofs.«176906_j7138235646107_1_alg».proof.Proof.Gen.Kernel.Skeleton
import proofs.«176906_j7138235646107_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the body leaves in the output tile at grid point `t`: on the first 64 tiles the tile of e times the
    column-scale row, on the last 32 the slab of diag(mu) cut out of the row mu. -/
def out1_3 (c : Dev nD) (t : Fin cfg1.N) : Vec F S128x4096 .f32 :=
  if t.val < 64 then k1_pay1 (iblk1 V c 0 t) (iblk1 V c 1 t) else k1_pay2 (grid1.coords t) (iblk1 V c 2 t)

/-- The proof data of the second pipeline: the arrays as found, each input's buffer at its block, the output
    tile at `out1_3`; nothing is carried between grid points, nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 V c t
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 V c t := by dsimp only [dat1]

/-! ## The two branch conditions, in closed form over the grid -/

/-- The first branch is taken exactly on the first 64 tiles. -/
theorem hcond1_1 : ∀ t : Fin cfg1.N, k1_cond1 (grid1.coords t) = 1#1 ↔ t.val < 64 :=
  (by decide +kernel : ∀ t : Fin grid1.N, k1_cond1 (grid1.coords t) = 1#1 ↔ t.val < 64)

/-- The second branch is taken exactly on the last 32 tiles. -/
theorem hcond1_2 : ∀ t : Fin cfg1.N, k1_cond2 (grid1.coords t) = 1#1 ↔ 64 ≤ t.val :=
  (by decide +kernel : ∀ t : Fin grid1.N, k1_cond2 (grid1.coords t) = 1#1 ↔ 64 ≤ t.val)

/-! ## No window is idle anywhere on the grid -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Exactly one branch is taken at every point, so the output tile is stored into at every point. -/
theorem liveAt1_3 : ∀ t : Fin cfg1.N, cfg1.idle 3 (grid1.coords t) = false := by decide +kernel

/-! ## Each input's buffer holds its block at every point -/

/-- Input window 0's current buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the column-scale row, resident from the first point on) likewise. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (the row mu, resident from the first point on) likewise. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body's one store covers the whole output tile -/

/-- The zero offsets of the body's accesses. -/
theorem offs1_zero : (![0, 0] : Fin 2 → Nat) = fun _ => 0 := funext fun a => by fin_cases a <;> rfl

set_option maxHeartbeats 1000000 in
/-- On the first 64 tiles the body reads the tile of e and the column-scale row and stores their product over the whole
    output tile; every input is handed back as it was. -/
theorem sound_kernel1_A (c : Dev nD) (E : Set ℕ) (i : grid1.Coords)
    (arg1 : Memref sig .tc .vmem S128x4096 .f32) (harg1 : arg1.IsWhole) (arg2 : Memref sig .tc .vmem S1x4096 .f32) (harg2 : arg2.IsWhole)
    (arg3 : Memref sig .tc .vmem S1x4096 .f32) (harg3 : arg3.IsWhole) (arg4 : Memref sig .tc .vmem S128x4096 .f32) (harg4 : arg4.IsWhole)
    (hc0 : k1_cond1 i = 1#1) (hc1 : ¬ k1_cond2 i = 1#1)
    (x0 : Vec F S128x4096 .f32) (x1 : Vec F S1x4096 .f32) (x2 : Vec F S1x4096 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k1_pay1 x0 x1)) -∗ K ⟨⟩))
      ⊢ wp frame (wpE (defs₀ (F := F)) Variants.none c none) E (cc1_combine_kernel i arg1 harg1 arg2 harg2 arg3 harg3 arg4 harg4) K := by
  simp only [cc1_combine_kernel_eq_skeleton]; unfold cc1_combine_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (fun y => ⟨_, List.mem_singleton_self _, View.mem_set_unit_zero offs1_zero inb_S128x4096_S128x4096_0_0 y⟩),
    View.canon_unit_zero offs1_zero]
  have e0 : View.readAt (Elt F) arg1.view (Rect.unit ![0, 0] S128x4096.size inb_S128x4096_S128x4096_0_0).toLoadRect f0
      = View.read (Elt F) arg1.view f0 := View.ld_unit_zero (S := S128x4096) offs1_zero _ (View.read (Elt F) arg1.view f0)
  have e1 : View.readAt (Elt F) arg2.view (Rect.unit ![0, 0] S1x4096.size inb_S1x4096_S1x4096_0_0).toLoadRect f1
      = View.read (Elt F) arg2.view f1 := View.ld_unit_zero (S := S1x4096) offs1_zero _ (View.read (Elt F) arg2.view f1)
  rw [e0, e1]

set_option maxHeartbeats 1000000 in
/-- On the last 32 tiles the body reads the row mu and stores, over the whole output tile, the slab of diag(mu) that the
    tile's global rows select; every input is handed back as it was. -/
theorem sound_kernel1_B (c : Dev nD) (E : Set ℕ) (i : grid1.Coords)
    (arg1 : Memref sig .tc .vmem S128x4096 .f32) (harg1 : arg1.IsWhole) (arg2 : Memref sig .tc .vmem S1x4096 .f32) (harg2 : arg2.IsWhole)
    (arg3 : Memref sig .tc .vmem S1x4096 .f32) (harg3 : arg3.IsWhole) (arg4 : Memref sig .tc .vmem S128x4096 .f32) (harg4 : arg4.IsWhole)
    (hc0 : ¬ k1_cond1 i = 1#1) (hc1 : k1_cond2 i = 1#1)
    (x0 : Vec F S128x4096 .f32) (x1 : Vec F S1x4096 .f32) (x2 : Vec F S1x4096 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k1_pay2 i x2)) -∗ K ⟨⟩))
      ⊢ wp frame (wpE (defs₀ (F := F)) Variants.none c none) E (cc1_combine_kernel i arg1 harg1 arg2 harg2 arg3 harg3 arg4 harg4) K := by
  simp only [cc1_combine_kernel_eq_skeleton]; unfold cc1_combine_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (fun y => ⟨_, List.mem_singleton_self _, View.mem_set_unit_zero offs1_zero inb_S128x4096_S128x4096_0_0 y⟩),
    View.canon_unit_zero offs1_zero]
  have e2 : View.readAt (Elt F) arg3.view (Rect.unit ![0, 0] S1x4096.size inb_S1x4096_S1x4096_0_0).toLoadRect f2
      = View.read (Elt F) arg3.view f2 := View.ld_unit_zero (S := S1x4096) offs1_zero _ (View.read (Elt F) arg3.view f2)
  rw [e2]

/-! ## The body obligation, at a generic point -/

/-- With no window idle, what the body must leave in window `w`'s buffer is the proof data's contents after the point. -/
theorem leaves1_0 (c : Dev nD) (t : Fin cfg1.N) :
    (dat1 V c).leavesExact 0 t = owns (c : Thread nD τ) (st1_0 t) fullShare ((dat1 V c).after 0 t) := by
  unfold Dat.leavesExact; rw [liveAt1_0 t]
theorem leaves1_1 (c : Dev nD) (t : Fin cfg1.N) :
    (dat1 V c).leavesExact 1 t = owns (c : Thread nD τ) (st1_1 t) fullShare ((dat1 V c).after 1 t) := by
  unfold Dat.leavesExact; rw [liveAt1_1 t]
theorem leaves1_2 (c : Dev nD) (t : Fin cfg1.N) :
    (dat1 V c).leavesExact 2 t = owns (c : Thread nD τ) (st1_2 t) fullShare ((dat1 V c).after 2 t) := by
  unfold Dat.leavesExact; rw [liveAt1_2 t]
theorem leaves1_3 (c : Dev nD) (t : Fin cfg1.N) :
    (dat1 V c).leavesExact 3 t = owns (c : Thread nD τ) (st1_3 t) fullShare ((dat1 V c).after 3 t) := by
  unfold Dat.leavesExact; rw [liveAt1_3 t]

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 1000000 in
/-- The body at any point: the inputs' buffers hold their blocks; the point is among the first 64 tiles or the last 32,
    and the matching case of the body's triple applies; the invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    leaves1_0, leaves1_1, leaves1_2, leaves1_3, after1_0, after1_1, after1_2, after1_3]
  unfold out1_3
  by_cases h : t.val < 64
  · rw [if_pos h]
    iintro ⟨HΦ, Ho, ⟨%d0, H0⟩, ⟨%d1, H1⟩, ⟨%d2, H2⟩, ⟨%d3, H3⟩⟩
    iapply (sound_kernel1_A c Set.univ (grid1.coords t) _ _ _ _ _ _ _ _ ((hcond1_1 t).mpr h)
      (fun h2 => absurd ((hcond1_2 t).mp h2) (Nat.not_le.mpr h)) (iblk1 V c 0 t) (iblk1 V c 1 t) (iblk1 V c 2 t) _)
    isplitl [H0]; · iexact H0
    isplitl [H1]; · iexact H1
    isplitl [H2]; · iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [if_neg h]
    iintro ⟨HΦ, Ho, ⟨%d0, H0⟩, ⟨%d1, H1⟩, ⟨%d2, H2⟩, ⟨%d3, H3⟩⟩
    iapply (sound_kernel1_B c Set.univ (grid1.coords t) _ _ _ _ _ _ _ _ (fun h1 => h ((hcond1_1 t).mp h1))
      ((hcond1_2 t).mpr (Nat.le_of_not_lt h)) (iblk1 V c 0 t) (iblk1 V c 1 t) (iblk1 V c 2 t) _)
    isplitl [H0]; · iexact H0
    isplitl [H1]; · iexact H1
    isplitl [H2]; · iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The body obligation of the second region at every grid point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Records.lean ====
/-
  The whole run of the program: two kernel regions among stretches of elementwise host operations.
  Between two items the core holds every unscoped buffer at a named valuation: the launch contents, then each host
  stretch applied, each region replacing its output array by what its write-backs leave. The first region's output
  row and the second region's output matrix are NAMED here (`outs`), so that the values the program returns can be
  read off the last valuation.
-/
import proofs.«176906_j7138235646107_1_alg».proof.Proof.Gen.Kernel.Regions
import proofs.«176906_j7138235646107_1_alg».proof.Proof.K.Region0
import proofs.«176906_j7138235646107_1_alg».proof.Proof.K.Region1

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents around the two regions -/

/-- The launch contents read at the core's references: what the first region is entered from. -/
abbrev Vin (c : Dev nD) (b : Ref sig .tc) : Buf (Elt F) ((c : Thread nD τ).loc b) := V0 m c b

/-- The core's buffers when the first region is left: its arrays at what the write-backs leave, the rest as entered. -/
def W1 (c : Dev nD) : Valuation τ sig (Elt F) :=
  Pipeline.withArrays spec0 c (V0 m c) fun w => (dat0 (Vin m) c).arrAt w cfg0.N

theorem W1_arr (c : Dev nD) (w : Fin cfg0.W) :
    W1 m c (Proc.devRef .tc (Pipeline.arrRef spec0 w)) = (dat0 (Vin m) c).arrAt w cfg0.N := by
  unfold W1; exact Pipeline.withArrays_arr spec0 launch0.win.arr_inj c _ _ w

/-- The first region's result named, the second's not yet: enough to state what the second region is entered from. -/
def outsA : Outs (F := F) := fun _ r c => W1 m c r

/-- What the second region is entered from: the host stretches applied over the first region's result. -/
abbrev Vmid (c : Dev nD) (b : Ref sig .tc) : Buf (Elt F) ((c : Thread nD τ).loc b) := V12 m (outsA m) c b

/-- The core's buffers when the second region is left. -/
def W13 (c : Dev nD) : Valuation τ sig (Elt F) :=
  Pipeline.withArrays spec1 c (V12 m (outsA m) c) fun w => (dat1 (Vmid m) c).arrAt w cfg1.N

theorem W13_arr (c : Dev nD) (w : Fin cfg1.W) :
    W13 m c (Proc.devRef .tc (Pipeline.arrRef spec1 w)) = (dat1 (Vmid m) c).arrAt w cfg1.N := by
  unfold W13; exact Pipeline.withArrays_arr spec1 launch1.win.arr_inj c _ _ w

/-- What the regions leave in their output arrays: after item 0 the first region's, after item 12 the second's. -/
def outs : Outs (F := F) := fun J r c => if J = 1 then W1 m c r else W13 m c r

theorem outs_one (r : Ref sig .tc) (c : Dev nD) : outs m 1 r c = W1 m c r := rfl
theorem outs_last (r : Ref sig .tc) (c : Dev nD) : outs m 13 r c = W13 m c r := rfl

/-- The valuation after the first region does not depend on what the second region will leave. -/
theorem V1_outs (c : Dev nD) : V1 m (outs m) c = V1 m (outsA m) c := rfl
theorem V12_outs (c : Dev nD) : V12 m (outs m) c = V12 m (outsA m) c := by
  unfold V12 V11 V10 V9 V8 V7 V6 V5 V4 V3 V2; rw [V1_outs]

/-- The first region's output row after the run, and the second region's output matrix. -/
theorem V1_main_v0 (c : Dev nD) : V1 m (outs m) c main_v0 = (dat0 (Vin m) c).arrAt 1 cfg0.N := by
  show Function.update (V0 m c) (Proc.devRef .tc main_v0) (outs m 1 main_v0 c) (Proc.devRef .tc main_v0) = _
  rw [Function.update_self, outs_one]; exact W1_arr m c 1
theorem V13_main_v26 (c : Dev nD) : V13 m (outs m) c main_v26 = (dat1 (Vmid m) c).arrAt 3 cfg1.N := by
  show Function.update (V12 m (outs m) c) (Proc.devRef .tc main_v26) (outs m 13 main_v26 c) (Proc.devRef .tc main_v26) = _
  rw [Function.update_self, outs_last]; exact W13_arr m c 3

/-! ## What each region's arrays hold when it is left, and what the other buffers hold -/

/-- The first region's arrays at its last point: the input as entered, the output row as named. -/
theorem hF0 (c : Dev nD) : ∀ w : Fin cfg0.W, (dat0 (Vin m) c).arrAt w cfg0.N = V1 m (outs m) c (Pipeline.arrRef spec0 w)
  | ⟨0, _⟩ => ((dat0 (Vin m) c).arrAt_in 0 rfl _).trans ((A_eq0 (Vin m) c 0).trans (V1_of m (outs m) c main_arg1 (by decide)).symm)
  | ⟨1, _⟩ => (V1_main_v0 m c).symm

/-- Off the first region's arrays nothing changes over it. -/
theorem hrest0 (c : Dev nD) : ∀ b, b ∉ Finset.univ.image (Pipeline.arrRef spec0) → V1 m (outs m) c b = Vin m c b :=
  fun b hb => V1_of m (outs m) c b fun h => by
    rw [List.mem_singleton] at h; subst h
    exact hb (Finset.mem_image.mpr ⟨1, Finset.mem_univ _, rfl⟩)

/-- The second region's arrays at its last point: the three inputs as entered, the output matrix as named. -/
theorem hF1 (c : Dev nD) : ∀ w : Fin cfg1.W, (dat1 (Vmid m) c).arrAt w cfg1.N = V13 m (outs m) c (Pipeline.arrRef spec1 w)
  | ⟨0, _⟩ => ((dat1 (Vmid m) c).arrAt_in 0 rfl _).trans ((A_eq1 (Vmid m) c 0).trans
      ((V13_of m (outs m) c main_arg1 (by decide)).trans (congrFun (V12_outs m c) _)).symm)
  | ⟨1, _⟩ => ((dat1 (Vmid m) c).arrAt_in 1 rfl _).trans ((A_eq1 (Vmid m) c 1).trans
      ((V13_of m (outs m) c main_v24 (by decide)).trans (congrFun (V12_outs m c) _)).symm)
  | ⟨2, _⟩ => ((dat1 (Vmid m) c).arrAt_in 2 rfl _).trans ((A_eq1 (Vmid m) c 2).trans
      ((V13_of m (outs m) c main_v25 (by decide)).trans (congrFun (V12_outs m c) _)).symm)
  | ⟨3, _⟩ => (V13_main_v26 m c).symm

/-- Off the second region's arrays nothing changes over it. -/
theorem hrest1 (c : Dev nD) : ∀ b, b ∉ Finset.univ.image (Pipeline.arrRef spec1) → V13 m (outs m) c b = Vmid m c b :=
  fun b hb => (V13_of m (outs m) c b fun h => by
    rw [List.mem_singleton] at h; subst h
    exact hb (Finset.mem_image.mpr ⟨3, Finset.mem_univ _, rfl⟩)).trans (congrFun (V12_outs m c) _)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (Vin m) c
  | ⟨1, _⟩ => fun c => dat1 (Vmid m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev E : Fin 3 → Dev nD → sProp 𝕄 := fun _ c => R c

/-! ## The regions as segments -/

set_option backward.isDefEq.respectTransparency.types false in
/-- The first region: entered from the launch contents, left with its output row at the accumulated sums. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vin m) c).loose
  hwaits := Pipeline.hwaits_of_owed_zero _ _ _ _ L lv 0 fun _ _ => rfl
  pre c := iprop(StableHlo.held (c : Thread nD τ) (Pipeline.ucRefs τ sig) (V0 m c) ∗ R c)
  post c := iprop(StableHlo.held (c : Thread nD τ) (Pipeline.ucRefs τ sig) (V1 m (outs m) c) ∗ R c)
  X c := iprop(∃ r, prngReg c r)
  Y c := iprop(∃ r, prngReg c r)
  Z c := Pipeline.unscopedRest (Ix := Unit) (Name := ℕ) (U := UR sig nD τ) (Lvl := ℕ) spec0 c (Vin m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vin m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (Vin m) c)
    unfold Pipeline.ΦA
    iintro ⟨Hp, -, Hr⟩
    isplitl [Hr]; · iexact Hr
    iexact Hp
  hout c := by
    rw [Pipeline.ownSems0_none]
    refine (hout0 (Vin m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vin m c) (fun b => V1 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from the host stretches' results, left with its output matrix written tile by tile. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vmid m) c).loose
  hwaits := Pipeline.hwaits_of_owed_zero _ _ _ _ L lv 1 fun _ _ => rfl
  pre c := iprop(StableHlo.held (c : Thread nD τ) (Pipeline.ucRefs τ sig) (V12 m (outs m) c) ∗ R c)
  post c := iprop(StableHlo.held (c : Thread nD τ) (Pipeline.ucRefs τ sig) (V13 m (outs m) c) ∗ R c)
  X c := iprop(∃ r, prngReg c r)
  Y c := iprop(∃ r, prngReg c r)
  Z c := Pipeline.unscopedRest (Ix := Unit) (Name := ℕ) (U := UR sig nD τ) (Lvl := ℕ) spec1 c (Vmid m c)
  hentry c := by
    rw [V12_outs m c]
    rw [Pipeline.ownSems0_none]
    have hsplit := Pipeline.arrays_of_unscopedBufs (p := 1) (pcfgs (F := F)) adm (pdats m) launch1.win launch1.arr_whole c
      ((pdats m 1 c).share_full fun _ => rfl) (Vmid m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vmid m c) (fun b => V13 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

variable (ρ : Dev nD → PrngReg)

/-- The launch element is the pipelines' own, and no core takes a ghost resource of its own. -/
theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj)))
        ∗ bigSep Finset.univ fun _ : Dev nD => (iprop(emp) : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals every core, beside its buffers, makes the state that rides along: the generator register as
    launched, nothing owed. -/
theorem hE0 : iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts L lv)
    ⊢ (|={Set.univ}=> bigSep Finset.univ (E (F := F) 0) : sProp 𝕄) := by
  refine Pipeline.initEach L lv fun c => ?_
  iintro ⟨⟨-, HO, -, Hp, -⟩, -⟩
  imodintro
  isplitl [Hp]; · iexists _; iexact Hp
  iexists ∅; iexact HO

/-- The state that rides along ends owing nothing. -/
theorem hE2 (c : Dev nD) : E (F := F) 2 c ⊢ (iprop(∃ W, owes (c : Thread nD τ) (0 : CellTallies nD τ sig Unit) W) : sProp 𝕄) := by
  iintro ⟨-, HO⟩; iexact HO

set_option backward.isDefEq.respectTransparency.types false in
/-- The frame: every weakly fair execution terminates, nothing faults, both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  Gen.frame_cond m emb₁ () 𝒱₀ L lv (fun _ _ => rfl) ρ (outs m) (pdats m) 0 (fun _ => iprop(emp))
    (initOf (Pipeline.cells cfgs cellOf_inj) (Pipeline.launchToks cfgs cellOf_inj)) hu₀ E (hE0 ρ) hE2
    (reg0 m) (fun c => .rfl) (fun c => .rfl) (reg1 m) (fun c => .rfl) (fun c => .rfl)

set_option backward.isDefEq.respectTransparency.types false in
/-- The run with every unscoped buffer read at the end: each holds what the last valuation says. -/
theorem run_all : θ_run defs (onTc (τ := τ) (main (F := F))) ⟨m, fun _ => 0, ρ⟩ (fun r => ∀ c : Dev nD,
      ∀ b ∈ Pipeline.ucRefs τ sig, r.2.mem ((c : Thread nD τ).1, b) = V13 m (outs m) c b) := by
  refine Pipeline.θ_run_regions_kit_dev (pcfgs (F := F)) adm (pdats m) () cellOf_inj emb₁ defs₀ 𝒱₀ L lv m ρ main
    (segs m (outs m) 𝒱₀ L lv E () (pdats m) (reg0 m) (reg1 m))
    (fun c Q => by
      rewrite [main_chain c, Pipeline.Seg.run_eq_chain,
        show (segs m (outs m) 𝒱₀ L lv E () (pdats m) (reg0 m) (reg1 m) c).map Pipeline.Seg.prog = [
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          StableHlo.seq hostOps1_7,
          StableHlo.seq hostOps1_8,
          StableHlo.seq hostOps1_9,
          StableHlo.seq hostOps1_10,
          Prog.lift (.customCall (Pipeline.entry 1) ()) ] from rfl]
      exact .rfl)
    (fun c => by simp only [segs, Pipeline.Seg.pipes_host, Pipeline.Seg.pipes_region, Pipeline.Seg.pipes_nil]; decide)
    0 (fun _ _ => rfl) (fun _ => iprop(emp))
    (initOf (Pipeline.cells cfgs cellOf_inj) (Pipeline.launchToks cfgs cellOf_inj)) hu₀
    (T₀ := fun c => iprop(StableHlo.held (c : Thread nD τ) (Pipeline.ucRefs τ sig) (V0 m c) ∗ R c))
    (Tₙ := fun c => StableHlo.held (c : Thread nD τ) (Pipeline.ucRefs τ sig) (V13 m (outs m) c))
    (hch := fun c => ⟨.rfl, .rfl, .rfl, .rfl, .rfl, .rfl, .rfl, .rfl, .rfl, .rfl, .rfl, .rfl, .rfl, sep_mono .rfl (hE2 c)⟩)
    (hinit := ?_) (QY := fun c s => ∀ b ∈ Pipeline.ucRefs τ sig, s.mem ((c : Thread nD τ).1, b) = V13 m (outs m) c b)
    (hfin := fun c s' => ?_) (hQ := fun _ h => h)
  · -- the launch: the unscoped buffers are held at the launch contents; the rest makes the riding state on every core
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c
          ∗ prngReg c (ρ c) ∗ (iprop(emp) : sProp 𝕄)))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) ((0 : Dev nD → CellTallies nD τ sig Unit) c) ∅
              ∗ Pipeline.launchCred (0 : Dev nD → CellTallies nD τ sig Unit) c ∗ prngReg c (ρ c) ∗ (iprop(emp) : sProp 𝕄)))
            : sProp 𝕄) := by
      rw [← bigSep_sep']
      exact bigSep_mono fun c _ => by
        rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (hE0 (F := F) ρ) $$ [Hr Hla] with HE
    · isplitl [Hr]; · iexact Hr
      iexact Hla
    imodintro
    rw [bigSep_sep' Finset.univ (fun c : Dev nD => StableHlo.held (c : Thread nD τ) (Pipeline.ucRefs τ sig) (V0 m c)) (fun c : Dev nD => R (F := F) c)]
    isplitl [Hh]; · iexact Hh
    iexact HE
  · -- the end: every unscoped buffer read off the last valuation
    unfold StableHlo.held
    iintro ⟨Hh, HSI⟩
    imodintro
    iapply (pointsTo_read_all (Pipeline.ucRefs τ sig) (fun b => ((c : Thread nD τ).1, b)) (V13 m (outs m) c) s')
    isplitl [Hh] <;> iassumption

end Cert.Kernel.Hand

end
-- ==== Proof.KI.Region0.lean ====
/-
  The first kernel region: the column radius  a_j = sum_i |e_ij|  accumulated over 16 row tiles of 512 rows.
  A scratch row carries the running sum from one grid point to the next: point 0 resets it to zero, every
  point adds the column sums of |.| over its own 512 rows, and the last point copies it to the output row.
  Stated at a PARAMETER `V`: the buffer contents the region is entered from.
-/
import proofs.«176906_j7138235646107_1_alg».proof.Proof.Gen.KernelIdeal.Launch
import proofs.«176906_j7138235646107_1_alg».proof.Proof.Gen.KernelIdeal.Skeleton
import proofs.«176906_j7138235646107_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The running sum the scratch row holds after grid point `n`: the reset row plus the first tile's column sums at
    point 0, then the row before plus tile `n`'s column sums. -/
def acc0 (c : Dev nD) : (n : ℕ) → n < cfg0.N → Vec F S1x4096 .f32
  | 0, h => k0_pay2 (k0_pay1 (F := F)) (iblk0 V c 0 ⟨0, h⟩)
  | n + 1, h => k0_pay2 (acc0 c n (Nat.lt_of_succ_lt h)) (iblk0 V c 0 ⟨n + 1, h⟩)

/-- The scratch row as a whole memref. -/
abbrev scM0 : Memref sig .tc .vmem S1x4096 .f32 := Memref.whole cc0_scratch0

/-- The scoped buffers of the core that this region neither stages nor uses: the second region's staging buffers. -/
def others0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f))

/-- The region's invariant before grid point `n`: before the first point everything scoped at anything; afterwards
    the scratch row at the running sum of the points so far. -/
def PhiS0 (c : Dev nD) : (n : ℕ) → n ≤ cfg0.N → sProp 𝕄
  | 0, _ => Pipeline.ΦA spec0 c
  | n + 1, hn => iprop((owns (c : Thread nD τ) scM0 fullShare (acc0 V c n hn) ∗ others0 c) ∗ (∃ r, prngReg c r))

/-- The proof data of the first pipeline: the arrays as found, each input's buffer at its block, the output row's
    buffer at the running sum, the invariant above, nothing owed. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => acc0 V c t.val t.isLt
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = acc0 V c t.val t.isLt := by dsimp only [dat0]

/-! ## The body's branch conditions, decided over the grid -/

/-- The reset condition of the body, from the grid coordinate. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val = 0 :=
  (by decide +kernel : ∀ t : Fin grid0.N, cond0_0 (grid0.coords t) ↔ t.val = 0)

/-- The write-out condition of the body. -/
abbrev cond0_1 (i : grid0.Coords) : Prop := k0_cond2 i = 1#1
/-- It holds at the last point only. -/
theorem hcond0_1 : ∀ t : Fin cfg0.N, cond0_1 (grid0.coords t) ↔ t.val = 15 :=
  (by decide +kernel : ∀ t : Fin grid0.N, cond0_1 (grid0.coords t) ↔ t.val = 15)

/-- The input window is never idle. -/
theorem liveAt0_0 : ∀ t : Fin cfg0.N, cfg0.idle 0 (grid0.coords t) = false := by decide +kernel
/-- Off the last point the output row is idle, -/
theorem idleAt0_1 : ∀ t : Fin cfg0.N, ¬cond0_1 (grid0.coords t) → cfg0.idle 1 (grid0.coords t) = true := by decide +kernel
/-- and not written back. -/
theorem noFlush0_1 : ∀ t : Fin cfg0.N, ¬cond0_1 (grid0.coords t) → (cfg0.win 1).flush t = false := by decide +kernel
/-- At the last point it is live. -/
theorem liveAt0_1 : ∀ t : Fin cfg0.N, cond0_1 (grid0.coords t) → cfg0.idle 1 (grid0.coords t) = false := by decide +kernel

/-- Each window's current staging memref at point `t`, and its wholeness. -/
abbrev ms0_0 (t : Fin cfg0.N) : Memref sig .tc .vmem S512x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x4096 .f32 := win0_1.stage (cfg0.slots t 1)
abbrev hs0_1 (t : Fin cfg0.N) : (ms0_1 t).IsWhole := hstage0_1 ((cfg0.slots t 1).cast nbuf0_1)

/-- The zero offsets of a whole-row access. -/
theorem hz2 : (![0, 0] : Fin 2 → ℕ) = fun _ => 0 := by funext a; fin_cases a <;> rfl

/-- What a store of a whole row, made last, leaves in the row: its payload, whatever was stored before. -/
theorem read_store_row {sg : RefSig} {κ : Kind} {sp : Space} (v : View sg κ sp S1x4096 .f32) (f : v.ty.Contents (Elt F))
    (w : Vec F S1x4096 .f32) (L : List (View.Piece (Elt F) S1x4096 .f32)) :
    v.read (Elt F) (v.writes (Elt F) f ((⟨Rect.unit ![0, 0] S1x4096.size inb_S1x4096_S1x4096_0_0, w⟩ : View.Piece (Elt F) S1x4096 .f32) :: L)) = w := by
  rw [View.read_writes_eq_canon _ _ _ (fun y => ⟨_, List.mem_cons_self .., View.mem_set_unit_zero hz2 inb_S1x4096_S1x4096_0_0 y⟩),
    View.canon_cons_unit_zero hz2]

set_option maxHeartbeats 1000000 in
/-- The body at a middle point: the scratch row goes from `s` to `s` plus the tile's column sums of absolute values; nothing else changes. -/
theorem run0_B (c : Dev nD) (i : grid0.Coords) (arg1 : Memref sig .tc .vmem S512x4096 .f32) (harg1 : arg1.IsWhole) (arg2 : Memref sig .tc .vmem S1x4096 .f32) (harg2 : arg2.IsWhole) (arg3 : Memref sig .tc .vmem S1x4096 .f32) (harg3 : arg3.IsWhole) (hc0 : ¬cond0_0 i) (hc1 : ¬cond0_1 i)
    (x : Vec F S512x4096 .f32) (d : Vec F S1x4096 .f32) (s : Vec F S1x4096 .f32) (E : Set ℕ) (K : PUnit → sProp 𝕄) :
    iprop(owns (c : Thread nD τ) arg1 fullShare x ∗ owns (c : Thread nD τ) arg2 fullShare d ∗ owns (c : Thread nD τ) arg3 fullShare s
        ∗ (iprop(owns (c : Thread nD τ) arg1 fullShare x ∗ owns (c : Thread nD τ) arg2 fullShare d ∗ owns (c : Thread nD τ) arg3 fullShare (k0_pay2 s x)) -∗ K ⟨⟩))
      ⊢ wp frame (wpE (defs₀ (F := F)) Variants.none c none) E (cc0_apt_kernel i arg1 harg1 arg2 harg2 arg3 harg3) K := by
  simp only [cc0_apt_kernel_eq_skeleton]; unfold cc0_apt_kernel_skel
  unfold owns
  iintro ⟨⟨%f1, %hf1, H1⟩, ⟨%f2, %hf2, H2⟩, ⟨%f3, %hf3, H3⟩, Hk⟩
  obtain rfl := harg1.eq_unread hf1; obtain rfl := harg2.eq_unread hf2; obtain rfl := harg3.eq_unread hf3
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  iexists _; isplitr
  swap; · iexact H3
  ipureintro
  sl_unfold_words
  rw [read_store_row]
  simp only [View.readAt_eq_ld, harg3.read_unread, harg1.read_unread, View.readCov_unit_zero (S := S1x4096) _ hz2, View.ld_unit_zero (S := S1x4096) hz2, View.ld_unit_zero (S := S512x4096) hz2]

set_option maxHeartbeats 1000000 in
/-- The body at the first point: the scratch row, at anything before, ends at the reset row plus the tile's column sums of absolute values. -/
theorem run0_A (c : Dev nD) (i : grid0.Coords) (arg1 : Memref sig .tc .vmem S512x4096 .f32) (harg1 : arg1.IsWhole) (arg2 : Memref sig .tc .vmem S1x4096 .f32) (harg2 : arg2.IsWhole) (arg3 : Memref sig .tc .vmem S1x4096 .f32) (harg3 : arg3.IsWhole) (hc0 : cond0_0 i) (hc1 : ¬cond0_1 i)
    (x : Vec F S512x4096 .f32) (d : Vec F S1x4096 .f32) (E : Set ℕ) (K : PUnit → sProp 𝕄) :
    iprop(owns (c : Thread nD τ) arg1 fullShare x ∗ owns (c : Thread nD τ) arg2 fullShare d ∗ (∃ s, owns (c : Thread nD τ) arg3 fullShare s)
        ∗ (iprop(owns (c : Thread nD τ) arg1 fullShare x ∗ owns (c : Thread nD τ) arg2 fullShare d ∗ owns (c : Thread nD τ) arg3 fullShare (k0_pay2 (k0_pay1 (F := F)) x)) -∗ K ⟨⟩))
      ⊢ wp frame (wpE (defs₀ (F := F)) Variants.none c none) E (cc0_apt_kernel i arg1 harg1 arg2 harg2 arg3 harg3) K := by
  simp only [cc0_apt_kernel_eq_skeleton]; unfold cc0_apt_kernel_skel
  unfold owns
  iintro ⟨⟨%f1, %hf1, H1⟩, ⟨%f2, %hf2, H2⟩, ⟨%s, %f3, -, H3⟩, Hk⟩
  obtain rfl := harg1.eq_unread hf1; obtain rfl := harg2.eq_unread hf2
  sl_exec (disch := first | exact hc0 | exact hc1)
  sl_step
  iapply Hk
  isplitl [H1]
  · iexists _; isplitr; · ipureintro; exact harg1.read_unread _
    iexact H1
  isplitl [H2]
  · iexists _; isplitr; · ipureintro; exact harg2.read_unread _
    iexact H2
  iexists _; isplitr
  swap; · iexact H3
  ipureintro
  sl_unfold_words
  rw [read_store_row]
  simp only [View.readAt_eq_ld, harg3.read_unread, harg1.read_unread, View.readCov_unit_zero (S := S1x4096) _ hz2, View.ld_unit_zero (S := S1x4096) hz2, View.ld_unit_zero (S := S512x4096) hz2]

set_option maxHeartbeats 1000000 in
/-- The body at the last point: as at a middle point, and the output row ends at the scratch row's final contents. -/
theorem run0_C (c : Dev nD) (i : grid0.Coords) (arg1 : Memref sig .tc .vmem S512x4096 .f32) (harg1 : arg1.IsWhole) (arg2 : Memref sig .tc .vmem S1x4096 .f32) (harg2 : arg2.IsWhole) (arg3 : Memref sig .tc .vmem S1x4096 .f32) (harg3 : arg3.IsWhole) (hc0 : ¬cond0_0 i) (hc1 : cond0_1 i)
    (x : Vec F S512x4096 .f32) (d : Vec F S1x4096 .f32) (s : Vec F S1x4096 .f32) (E : Set ℕ) (K : PUnit → sProp 𝕄) :
    iprop(owns (c : Thread nD τ) arg1 fullShare x ∗ owns (c : Thread nD τ) arg2 fullShare d ∗ owns (c : Thread nD τ) arg3 fullShare s
        ∗ (iprop(owns (c : Thread nD τ) arg1 fullShare x ∗ owns (c : Thread nD τ) arg2 fullShare (k0_pay2 s x) ∗ owns (c : Thread nD τ) arg3 fullShare (k0_pay2 s x)) -∗ K ⟨⟩))
      ⊢ wp frame (wpE (defs₀ (F := F)) Variants.none c none) E (cc0_apt_kernel i arg1 harg1 arg2 harg2 arg3 harg3) K := by
  simp only [cc0_apt_kernel_eq_skeleton]; unfold cc0_apt_kernel_skel
  unfold owns
  iintro ⟨⟨%f1, %hf1, H1⟩, ⟨%f2, %hf2, H2⟩, ⟨%f3, %hf3, H3⟩, Hk⟩
  obtain rfl := harg1.eq_unread hf1; obtain rfl := harg2.eq_unread hf2; obtain rfl := harg3.eq_unread hf3
  sl_exec (disch := first | exact hc0 | exact hc1)
  sl_step
  iapply Hk
  isplitl [H1]
  · iexists _; isplitr; · ipureintro; exact harg1.read_unread _
    iexact H1
  isplitl [H2]
  · iexists _; isplitr
    swap; · iexact H2
    ipureintro
    sl_unfold_words
    rw [read_store_row]
    simp only [View.readAt_eq_ld, harg3.read_unread, harg1.read_unread, View.readCov_unit_zero (S := S1x4096) _ hz2, View.ld_unit_zero (S := S1x4096) hz2, View.ld_unit_zero (S := S512x4096) hz2]
  iexists _; isplitr
  swap; · iexact H3
  ipureintro
  sl_unfold_words
  rw [read_store_row]
  simp only [View.readAt_eq_ld, harg3.read_unread, harg1.read_unread, View.readCov_unit_zero (S := S1x4096) _ hz2, View.ld_unit_zero (S := S1x4096) hz2, View.ld_unit_zero (S := S512x4096) hz2]

/-! ## The running sum and the invariant, point by point -/

/-- At the first point the running sum is the reset row plus the first tile's column sums. -/
theorem acc0_zero (c : Dev nD) (t : Fin cfg0.N) (h0 : t.val = 0) :
    acc0 V c t.val t.isLt = k0_pay2 (k0_pay1 (F := F)) (iblk0 V c 0 t) := by
  obtain ⟨n, hn⟩ := t
  cases n with
  | zero => rfl
  | succ n => exact absurd h0 (Nat.succ_ne_zero n)

/-- At a later point it is the sum before plus this tile's column sums. -/
theorem acc0_pos (c : Dev nD) (t : Fin cfg0.N) (h0 : t.val ≠ 0) :
    acc0 V c t.val t.isLt = k0_pay2 (acc0 V c (t.val - 1) (Nat.lt_of_le_of_lt (Nat.sub_le _ _) t.isLt)) (iblk0 V c 0 t) := by
  obtain ⟨n, hn⟩ := t
  cases n with
  | zero => exact absurd rfl h0
  | succ n => rfl

theorem PhiS0_zero (c : Dev nD) (n : ℕ) (h : n ≤ cfg0.N) (hz : n = 0) : PhiS0 V c n h = Pipeline.ΦA spec0 c := by
  subst hz; rfl

/-- After point `n`: the scratch row at that point's running sum. -/
theorem PhiS0_succ (c : Dev nD) (n : ℕ) (hn : n < cfg0.N) :
    PhiS0 V c (n + 1) hn = iprop((owns (c : Thread nD τ) scM0 fullShare (acc0 V c n hn) ∗ others0 c) ∗ (∃ r, prngReg c r)) := rfl

/-- Before a point that is not the first: the scratch row at the running sum of the point before. -/
theorem PhiS0_pos (c : Dev nD) (n : ℕ) (h : n ≤ cfg0.N) (hz : n ≠ 0) :
    PhiS0 V c n h = iprop((owns (c : Thread nD τ) scM0 fullShare (acc0 V c (n - 1) (by omega)) ∗ others0 c) ∗ (∃ r, prngReg c r)) := by
  cases n with
  | zero => exact absurd rfl hz
  | succ n => rfl

/-- The invariant at a point's start, restated at the point's position. -/
theorem PhiS0_castSucc (c : Dev nD) (t : Fin cfg0.N) :
    (dat0 V c).Φ t.castSucc = PhiS0 V c t.val (Nat.le_of_lt t.isLt) := by
  dsimp only [dat0]; simp only [Fin.coe_castSucc]

/-- Everything scoped at anything, with the scratch row as a memref owned at some contents. -/
theorem PhiA0_eq (c : Dev nD) :
    (Pipeline.ΦA spec0 c : sProp 𝕄)
      = iprop(((∃ d, owns (c : Thread nD τ) scM0 fullShare d) ∗ others0 c) ∗ (∃ r, prngReg c r)) := by
  unfold Pipeline.ΦA; rw [scopedRest0_eq]; unfold others0; simp only [scM0, owns_whole]; try rfl

/-- The input tile's current staging buffer holds its block at every point. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4800000 in
/-- The body at any point: the tile's buffer holds its block; the point is the first, the last or a middle one; the
    invariant hands the body the scratch row at the running sum before (at anything at the first point) and takes it
    back at this point's running sum; the output row's buffer is handed back untouched off the last point and ends at
    the final running sum there. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = PhiS0 V c (t.val + 1) t.isLt from rfl, PhiS0_succ]
  have hN : t.val < 16 := lt_of_lt_of_eq t.isLt (show cfg0.N = 16 from N_0)
  rw [show (dat0 V c).leavesExact 0 t = owns (c : Thread nD τ) (ms0_0 t) fullShare ((dat0 V c).after 0 t) from by
    unfold Dat.leavesExact; rw [liveAt0_0 t], after0_0]
  by_cases h0 : t.val = 0
  · have hc0 : cond0_0 (grid0.coords t) := (hcond0_0 t).mpr h0
    have hc1 : ¬cond0_1 (grid0.coords t) := fun h => by have := (hcond0_1 t).mp h; omega
    rw [Dat.leavesExact_idle (dat0 V c) 1 t (idleAt0_1 t hc1) (noFlush0_1 t hc1)]
    rw [PhiS0_castSucc V c t, PhiS0_zero V c _ _ h0, PhiA0_eq, acc0_zero V c t h0]
    iintro ⟨⟨⟨HS, Ho⟩, Hg⟩, Hw, ⟨%d0, H0⟩, ⟨%d1, H1⟩⟩
    iapply (run0_A c (grid0.coords t) (ms0_0 t) (hs0_0 t) (ms0_1 t) (hs0_1 t) scM0 (Memref.isWhole_whole _) hc0 hc1 (iblk0 V c 0 t) ((dat0 V c).before 1 t d1) Set.univ _)
    isplitl [H0]; · iexact H0
    isplitl [H1]; · iexact H1
    isplitl [HS]; · iexact HS
    iintro ⟨H0, H1, HS⟩
    isplitl [HS Ho Hg]
    · isplitl [HS Ho]
      · isplitl [HS]; · iexact HS
        iexact Ho
      iexact Hg
    isplitl [Hw]; · iexact Hw
    isplitl [H0]; · iexact H0
    iexists _; iexact H1
  · have hc0 : ¬cond0_0 (grid0.coords t) := fun h => h0 ((hcond0_0 t).mp h)
    by_cases h1 : t.val = 15
    · have hc1 : cond0_1 (grid0.coords t) := (hcond0_1 t).mpr h1
      rw [show (dat0 V c).leavesExact 1 t = owns (c : Thread nD τ) (ms0_1 t) fullShare ((dat0 V c).after 1 t) from by
        unfold Dat.leavesExact; rw [liveAt0_1 t hc1], after0_1]
      rw [PhiS0_castSucc V c t, PhiS0_pos V c _ _ h0, acc0_pos V c t h0]
      iintro ⟨⟨⟨HS, Ho⟩, Hg⟩, Hw, ⟨%d0, H0⟩, ⟨%d1, H1⟩⟩
      iapply (run0_C c (grid0.coords t) (ms0_0 t) (hs0_0 t) (ms0_1 t) (hs0_1 t) scM0 (Memref.isWhole_whole _) hc0 hc1 (iblk0 V c 0 t) ((dat0 V c).before 1 t d1) (acc0 V c (t.val - 1) (Nat.lt_of_le_of_lt (Nat.sub_le _ _) t.isLt)) Set.univ _)
      isplitl [H0]; · iexact H0
      isplitl [H1]; · iexact H1
      isplitl [HS]; · iexact HS
      iintro ⟨H0, H1, HS⟩
      isplitl [HS Ho Hg]
      · isplitl [HS Ho]
        · isplitl [HS]; · iexact HS
          iexact Ho
        iexact Hg
      isplitl [Hw]; · iexact Hw
      isplitl [H0]; · iexact H0
      iexact H1
    · have hc1 : ¬cond0_1 (grid0.coords t) := fun h => h1 ((hcond0_1 t).mp h)
      rw [Dat.leavesExact_idle (dat0 V c) 1 t (idleAt0_1 t hc1) (noFlush0_1 t hc1)]
      rw [PhiS0_castSucc V c t, PhiS0_pos V c _ _ h0, acc0_pos V c t h0]
      iintro ⟨⟨⟨HS, Ho⟩, Hg⟩, Hw, ⟨%d0, H0⟩, ⟨%d1, H1⟩⟩
      iapply (run0_B c (grid0.coords t) (ms0_0 t) (hs0_0 t) (ms0_1 t) (hs0_1 t) scM0 (Memref.isWhole_whole _) hc0 hc1 (iblk0 V c 0 t) ((dat0 V c).before 1 t d1) (acc0 V c (t.val - 1) (Nat.lt_of_le_of_lt (Nat.sub_le _ _) t.isLt)) Set.univ _)
      isplitl [H0]; · iexact H0
      isplitl [H1]; · iexact H1
      isplitl [HS]; · iexact HS
      iintro ⟨H0, H1, HS⟩
      isplitl [HS Ho Hg]
      · isplitl [HS Ho]
        · isplitl [HS]; · iexact HS
          iexact Ho
        iexact Hg
      isplitl [Hw]; · iexact Hw
      isplitl [H0]; · iexact H0
      iexists _; iexact H1

/-- The body obligation of the first region at every grid point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives everything scoped back: the running sum's name is forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS, Ho⟩, Hg⟩
  isplitl [HS Ho]
  · isplitl [HS]
    · iexists _; iexact HS
    iexact Ho
  iexact Hg

/-- After the last point the invariant gives everything scoped back at some contents. -/
theorem hout0 (c : Dev nD) : (dat0 V c).Φ (Fin.last cfg0.N) ⊢ Pipeline.ΦA spec0 c :=
  Phi_out0 V c _ (by rw [Fin.val_last]; have : cfg0.N = 16 := N_0; omega)

end Cert.KernelIdeal.Hand

end
-- ==== Proof.KI.Region1.lean ====
/-
  The second kernel region: the new generator matrix, 96 row tiles of 128 rows. The first 64 tiles are the rows
  of e scaled column by column; the last 32 tiles are the rows of diag(mu), written from the resident row mu by
  comparing a column index with the global row index. Stated at a PARAMETER `V`: the buffer contents the
  region is entered from.
-/
import proofs.«176906_j7138235646107_1_alg».proof.Proof.Gen.KernelIdeal.Launch
import proofs.«176906_j7138235646107_1_alg».proof.Proof.Gen.KernelIdeal.Skeleton
import proofs.«176906_j7138235646107_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at grid point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the body leaves in the output tile at grid point `t`: on the first 64 tiles the tile of e times the
    column-scale row, on the last 32 the slab of diag(mu) cut out of the row mu. -/
def out1_3 (c : Dev nD) (t : Fin cfg1.N) : Vec F S128x4096 .f32 :=
  if t.val < 64 then k1_pay1 (iblk1 V c 0 t) (iblk1 V c 1 t) else k1_pay2 (grid1.coords t) (iblk1 V c 2 t)

/-- The proof data of the second pipeline: the arrays as found, each input's buffer at its block, the output
    tile at `out1_3`; nothing is carried between grid points, nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 V c t
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 V c t := by dsimp only [dat1]

/-! ## The two branch conditions, in closed form over the grid -/

/-- The first branch is taken exactly on the first 64 tiles. -/
theorem hcond1_1 : ∀ t : Fin cfg1.N, k1_cond1 (grid1.coords t) = 1#1 ↔ t.val < 64 :=
  (by decide +kernel : ∀ t : Fin grid1.N, k1_cond1 (grid1.coords t) = 1#1 ↔ t.val < 64)

/-- The second branch is taken exactly on the last 32 tiles. -/
theorem hcond1_2 : ∀ t : Fin cfg1.N, k1_cond2 (grid1.coords t) = 1#1 ↔ 64 ≤ t.val :=
  (by decide +kernel : ∀ t : Fin grid1.N, k1_cond2 (grid1.coords t) = 1#1 ↔ 64 ≤ t.val)

/-! ## No window is idle anywhere on the grid -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Exactly one branch is taken at every point, so the output tile is stored into at every point. -/
theorem liveAt1_3 : ∀ t : Fin cfg1.N, cfg1.idle 3 (grid1.coords t) = false := by decide +kernel

/-! ## Each input's buffer holds its block at every point -/

/-- Input window 0's current buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 (the column-scale row, resident from the first point on) likewise. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2 (the row mu, resident from the first point on) likewise. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body's one store covers the whole output tile -/

/-- The zero offsets of the body's accesses. -/
theorem offs1_zero : (![0, 0] : Fin 2 → Nat) = fun _ => 0 := funext fun a => by fin_cases a <;> rfl

set_option maxHeartbeats 1000000 in
/-- On the first 64 tiles the body reads the tile of e and the column-scale row and stores their product over the whole
    output tile; every input is handed back as it was. -/
theorem sound_kernel1_A (c : Dev nD) (E : Set ℕ) (i : grid1.Coords)
    (arg1 : Memref sig .tc .vmem S128x4096 .f32) (harg1 : arg1.IsWhole) (arg2 : Memref sig .tc .vmem S1x4096 .f32) (harg2 : arg2.IsWhole)
    (arg3 : Memref sig .tc .vmem S1x4096 .f32) (harg3 : arg3.IsWhole) (arg4 : Memref sig .tc .vmem S128x4096 .f32) (harg4 : arg4.IsWhole)
    (hc0 : k1_cond1 i = 1#1) (hc1 : ¬ k1_cond2 i = 1#1)
    (x0 : Vec F S128x4096 .f32) (x1 : Vec F S1x4096 .f32) (x2 : Vec F S1x4096 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k1_pay1 x0 x1)) -∗ K ⟨⟩))
      ⊢ wp frame (wpE (defs₀ (F := F)) Variants.none c none) E (cc1_combine_kernel i arg1 harg1 arg2 harg2 arg3 harg3 arg4 harg4) K := by
  simp only [cc1_combine_kernel_eq_skeleton]; unfold cc1_combine_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (fun y => ⟨_, List.mem_singleton_self _, View.mem_set_unit_zero offs1_zero inb_S128x4096_S128x4096_0_0 y⟩),
    View.canon_unit_zero offs1_zero]
  have e0 : View.readAt (Elt F) arg1.view (Rect.unit ![0, 0] S128x4096.size inb_S128x4096_S128x4096_0_0).toLoadRect f0
      = View.read (Elt F) arg1.view f0 := View.ld_unit_zero (S := S128x4096) offs1_zero _ (View.read (Elt F) arg1.view f0)
  have e1 : View.readAt (Elt F) arg2.view (Rect.unit ![0, 0] S1x4096.size inb_S1x4096_S1x4096_0_0).toLoadRect f1
      = View.read (Elt F) arg2.view f1 := View.ld_unit_zero (S := S1x4096) offs1_zero _ (View.read (Elt F) arg2.view f1)
  rw [e0, e1]

set_option maxHeartbeats 1000000 in
/-- On the last 32 tiles the body reads the row mu and stores, over the whole output tile, the slab of diag(mu) that the
    tile's global rows select; every input is handed back as it was. -/
theorem sound_kernel1_B (c : Dev nD) (E : Set ℕ) (i : grid1.Coords)
    (arg1 : Memref sig .tc .vmem S128x4096 .f32) (harg1 : arg1.IsWhole) (arg2 : Memref sig .tc .vmem S1x4096 .f32) (harg2 : arg2.IsWhole)
    (arg3 : Memref sig .tc .vmem S1x4096 .f32) (harg3 : arg3.IsWhole) (arg4 : Memref sig .tc .vmem S128x4096 .f32) (harg4 : arg4.IsWhole)
    (hc0 : ¬ k1_cond1 i = 1#1) (hc1 : k1_cond2 i = 1#1)
    (x0 : Vec F S128x4096 .f32) (x1 : Vec F S1x4096 .f32) (x2 : Vec F S1x4096 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (k1_pay2 i x2)) -∗ K ⟨⟩))
      ⊢ wp frame (wpE (defs₀ (F := F)) Variants.none c none) E (cc1_combine_kernel i arg1 harg1 arg2 harg2 arg3 harg3 arg4 harg4) K := by
  simp only [cc1_combine_kernel_eq_skeleton]; unfold cc1_combine_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  rw [View.read_writes_eq_canon _ _ _ (fun y => ⟨_, List.mem_singleton_self _, View.mem_set_unit_zero offs1_zero inb_S128x4096_S128x4096_0_0 y⟩),
    View.canon_unit_zero offs1_zero]
  have e2 : View.readAt (Elt F) arg3.view (Rect.unit ![0, 0] S1x4096.size inb_S1x4096_S1x4096_0_0).toLoadRect f2
      = View.read (Elt F) arg3.view f2 := View.ld_unit_zero (S := S1x4096) offs1_zero _ (View.read (Elt F) arg3.view f2)
  rw [e2]

/-! ## The body obligation, at a generic point -/

/-- With no window idle, what the body must leave in window `w`'s buffer is the proof data's contents after the point. -/
theorem leaves1_0 (c : Dev nD) (t : Fin cfg1.N) :
    (dat1 V c).leavesExact 0 t = owns (c : Thread nD τ) (st1_0 t) fullShare ((dat1 V c).after 0 t) := by
  unfold Dat.leavesExact; rw [liveAt1_0 t]
theorem leaves1_1 (c : Dev nD) (t : Fin cfg1.N) :
    (dat1 V c).leavesExact 1 t = owns (c : Thread nD τ) (st1_1 t) fullShare ((dat1 V c).after 1 t) := by
  unfold Dat.leavesExact; rw [liveAt1_1 t]
theorem leaves1_2 (c : Dev nD) (t : Fin cfg1.N) :
    (dat1 V c).leavesExact 2 t = owns (c : Thread nD τ) (st1_2 t) fullShare ((dat1 V c).after 2 t) := by
  unfold Dat.leavesExact; rw [liveAt1_2 t]
theorem leaves1_3 (c : Dev nD) (t : Fin cfg1.N) :
    (dat1 V c).leavesExact 3 t = owns (c : Thread nD τ) (st1_3 t) fullShare ((dat1 V c).after 3 t) := by
  unfold Dat.leavesExact; rw [liveAt1_3 t]

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 1000000 in
/-- The body at any point: the inputs' buffers hold their blocks; the point is among the first 64 tiles or the last 32,
    and the matching case of the body's triple applies; the invariant and what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    leaves1_0, leaves1_1, leaves1_2, leaves1_3, after1_0, after1_1, after1_2, after1_3]
  unfold out1_3
  by_cases h : t.val < 64
  · rw [if_pos h]
    iintro ⟨HΦ, Ho, ⟨%d0, H0⟩, ⟨%d1, H1⟩, ⟨%d2, H2⟩, ⟨%d3, H3⟩⟩
    iapply (sound_kernel1_A c Set.univ (grid1.coords t) _ _ _ _ _ _ _ _ ((hcond1_1 t).mpr h)
      (fun h2 => absurd ((hcond1_2 t).mp h2) (Nat.not_le.mpr h)) (iblk1 V c 0 t) (iblk1 V c 1 t) (iblk1 V c 2 t) _)
    isplitl [H0]; · iexact H0
    isplitl [H1]; · iexact H1
    isplitl [H2]; · iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [if_neg h]
    iintro ⟨HΦ, Ho, ⟨%d0, H0⟩, ⟨%d1, H1⟩, ⟨%d2, H2⟩, ⟨%d3, H3⟩⟩
    iapply (sound_kernel1_B c Set.univ (grid1.coords t) _ _ _ _ _ _ _ _ (fun h1 => h ((hcond1_1 t).mp h1))
      ((hcond1_2 t).mpr (Nat.le_of_not_lt h)) (iblk1 V c 0 t) (iblk1 V c 1 t) (iblk1 V c 2 t) _)
    isplitl [H0]; · iexact H0
    isplitl [H1]; · iexact H1
    isplitl [H2]; · iexact H2
    isplitl [H3]; · iexists _; iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

/-- The body obligation of the second region at every grid point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Records.lean ====
/-
  The whole run of the program: two kernel regions among stretches of elementwise host operations.
  Between two items the core holds every unscoped buffer at a named valuation: the launch contents, then each host
  stretch applied, each region replacing its output array by what its write-backs leave. The first region's output
  row and the second region's output matrix are NAMED here (`outs`), so that the values the program returns can be
  read off the last valuation.
-/
import proofs.«176906_j7138235646107_1_alg».proof.Proof.Gen.KernelIdeal.Regions
import proofs.«176906_j7138235646107_1_alg».proof.Proof.KI.Region0
import proofs.«176906_j7138235646107_1_alg».proof.Proof.KI.Region1

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The buffer contents around the two regions -/

/-- The launch contents read at the core's references: what the first region is entered from. -/
abbrev Vin (c : Dev nD) (b : Ref sig .tc) : Buf (Elt F) ((c : Thread nD τ).loc b) := V0 m c b

/-- The core's buffers when the first region is left: its arrays at what the write-backs leave, the rest as entered. -/
def W1 (c : Dev nD) : Valuation τ sig (Elt F) :=
  Pipeline.withArrays spec0 c (V0 m c) fun w => (dat0 (Vin m) c).arrAt w cfg0.N

theorem W1_arr (c : Dev nD) (w : Fin cfg0.W) :
    W1 m c (Proc.devRef .tc (Pipeline.arrRef spec0 w)) = (dat0 (Vin m) c).arrAt w cfg0.N := by
  unfold W1; exact Pipeline.withArrays_arr spec0 launch0.win.arr_inj c _ _ w

/-- The first region's result named, the second's not yet: enough to state what the second region is entered from. -/
def outsA : Outs (F := F) := fun _ r c => W1 m c r

/-- What the second region is entered from: the host stretches applied over the first region's result. -/
abbrev Vmid (c : Dev nD) (b : Ref sig .tc) : Buf (Elt F) ((c : Thread nD τ).loc b) := V12 m (outsA m) c b

/-- The core's buffers when the second region is left. -/
def W13 (c : Dev nD) : Valuation τ sig (Elt F) :=
  Pipeline.withArrays spec1 c (V12 m (outsA m) c) fun w => (dat1 (Vmid m) c).arrAt w cfg1.N

theorem W13_arr (c : Dev nD) (w : Fin cfg1.W) :
    W13 m c (Proc.devRef .tc (Pipeline.arrRef spec1 w)) = (dat1 (Vmid m) c).arrAt w cfg1.N := by
  unfold W13; exact Pipeline.withArrays_arr spec1 launch1.win.arr_inj c _ _ w

/-- What the regions leave in their output arrays: after item 0 the first region's, after item 12 the second's. -/
def outs : Outs (F := F) := fun J r c => if J = 1 then W1 m c r else W13 m c r

theorem outs_one (r : Ref sig .tc) (c : Dev nD) : outs m 1 r c = W1 m c r := rfl
theorem outs_last (r : Ref sig .tc) (c : Dev nD) : outs m 13 r c = W13 m c r := rfl

/-- The valuation after the first region does not depend on what the second region will leave. -/
theorem V1_outs (c : Dev nD) : V1 m (outs m) c = V1 m (outsA m) c := rfl
theorem V12_outs (c : Dev nD) : V12 m (outs m) c = V12 m (outsA m) c := by
  unfold V12 V11 V10 V9 V8 V7 V6 V5 V4 V3 V2; rw [V1_outs]

/-- The first region's output row after the run, and the second region's output matrix. -/
theorem V1_main_v0 (c : Dev nD) : V1 m (outs m) c main_v0 = (dat0 (Vin m) c).arrAt 1 cfg0.N := by
  show Function.update (V0 m c) (Proc.devRef .tc main_v0) (outs m 1 main_v0 c) (Proc.devRef .tc main_v0) = _
  rw [Function.update_self, outs_one]; exact W1_arr m c 1
theorem V13_main_v26 (c : Dev nD) : V13 m (outs m) c main_v26 = (dat1 (Vmid m) c).arrAt 3 cfg1.N := by
  show Function.update (V12 m (outs m) c) (Proc.devRef .tc main_v26) (outs m 13 main_v26 c) (Proc.devRef .tc main_v26) = _
  rw [Function.update_self, outs_last]; exact W13_arr m c 3

/-! ## What each region's arrays hold when it is left, and what the other buffers hold -/

/-- The first region's arrays at its last point: the input as entered, the output row as named. -/
theorem hF0 (c : Dev nD) : ∀ w : Fin cfg0.W, (dat0 (Vin m) c).arrAt w cfg0.N = V1 m (outs m) c (Pipeline.arrRef spec0 w)
  | ⟨0, _⟩ => ((dat0 (Vin m) c).arrAt_in 0 rfl _).trans ((A_eq0 (Vin m) c 0).trans (V1_of m (outs m) c main_arg1 (by decide)).symm)
  | ⟨1, _⟩ => (V1_main_v0 m c).symm

/-- Off the first region's arrays nothing changes over it. -/
theorem hrest0 (c : Dev nD) : ∀ b, b ∉ Finset.univ.image (Pipeline.arrRef spec0) → V1 m (outs m) c b = Vin m c b :=
  fun b hb => V1_of m (outs m) c b fun h => by
    rw [List.mem_singleton] at h; subst h
    exact hb (Finset.mem_image.mpr ⟨1, Finset.mem_univ _, rfl⟩)

/-- The second region's arrays at its last point: the three inputs as entered, the output matrix as named. -/
theorem hF1 (c : Dev nD) : ∀ w : Fin cfg1.W, (dat1 (Vmid m) c).arrAt w cfg1.N = V13 m (outs m) c (Pipeline.arrRef spec1 w)
  | ⟨0, _⟩ => ((dat1 (Vmid m) c).arrAt_in 0 rfl _).trans ((A_eq1 (Vmid m) c 0).trans
      ((V13_of m (outs m) c main_arg1 (by decide)).trans (congrFun (V12_outs m c) _)).symm)
  | ⟨1, _⟩ => ((dat1 (Vmid m) c).arrAt_in 1 rfl _).trans ((A_eq1 (Vmid m) c 1).trans
      ((V13_of m (outs m) c main_v24 (by decide)).trans (congrFun (V12_outs m c) _)).symm)
  | ⟨2, _⟩ => ((dat1 (Vmid m) c).arrAt_in 2 rfl _).trans ((A_eq1 (Vmid m) c 2).trans
      ((V13_of m (outs m) c main_v25 (by decide)).trans (congrFun (V12_outs m c) _)).symm)
  | ⟨3, _⟩ => (V13_main_v26 m c).symm

/-- Off the second region's arrays nothing changes over it. -/
theorem hrest1 (c : Dev nD) : ∀ b, b ∉ Finset.univ.image (Pipeline.arrRef spec1) → V13 m (outs m) c b = Vmid m c b :=
  fun b hb => (V13_of m (outs m) c b fun h => by
    rw [List.mem_singleton] at h; subst h
    exact hb (Finset.mem_image.mpr ⟨3, Finset.mem_univ _, rfl⟩)).trans (congrFun (V12_outs m c) _)

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (Vin m) c
  | ⟨1, _⟩ => fun c => dat1 (Vmid m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
abbrev E : Fin 3 → Dev nD → sProp 𝕄 := fun _ c => R c

/-! ## The regions as segments -/

set_option backward.isDefEq.respectTransparency.types false in
/-- The first region: entered from the launch contents, left with its output row at the accumulated sums. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vin m) c).loose
  hwaits := Pipeline.hwaits_of_owed_zero _ _ _ _ L lv 0 fun _ _ => rfl
  pre c := iprop(StableHlo.held (c : Thread nD τ) (Pipeline.ucRefs τ sig) (V0 m c) ∗ R c)
  post c := iprop(StableHlo.held (c : Thread nD τ) (Pipeline.ucRefs τ sig) (V1 m (outs m) c) ∗ R c)
  X c := iprop(∃ r, prngReg c r)
  Y c := iprop(∃ r, prngReg c r)
  Z c := Pipeline.unscopedRest (Ix := Unit) (Name := ℕ) (U := UR sig nD τ) (Lvl := ℕ) spec0 c (Vin m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vin m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine .trans ?_ (hin0 (Vin m) c)
    unfold Pipeline.ΦA
    iintro ⟨Hp, -, Hr⟩
    isplitl [Hr]; · iexact Hr
    iexact Hp
  hout c := by
    rw [Pipeline.ownSems0_none]
    refine (hout0 (Vin m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vin m c) (fun b => V1 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The second region: entered from the host stretches' results, left with its output matrix written tile by tile. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vmid m) c).loose
  hwaits := Pipeline.hwaits_of_owed_zero _ _ _ _ L lv 1 fun _ _ => rfl
  pre c := iprop(StableHlo.held (c : Thread nD τ) (Pipeline.ucRefs τ sig) (V12 m (outs m) c) ∗ R c)
  post c := iprop(StableHlo.held (c : Thread nD τ) (Pipeline.ucRefs τ sig) (V13 m (outs m) c) ∗ R c)
  X c := iprop(∃ r, prngReg c r)
  Y c := iprop(∃ r, prngReg c r)
  Z c := Pipeline.unscopedRest (Ix := Unit) (Name := ℕ) (U := UR sig nD τ) (Lvl := ℕ) spec1 c (Vmid m c)
  hentry c := by
    rw [V12_outs m c]
    rw [Pipeline.ownSems0_none]
    have hsplit := Pipeline.arrays_of_unscopedBufs (p := 1) (pcfgs (F := F)) adm (pdats m) launch1.win launch1.arr_whole c
      ((pdats m 1 c).share_full fun _ => rfl) (Vmid m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vmid m c) (fun b => V13 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

variable (ρ : Dev nD → PrngReg)

/-- The launch element is the pipelines' own, and no core takes a ghost resource of its own. -/
theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj)))
        ∗ bigSep Finset.univ fun _ : Dev nD => (iprop(emp) : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- What the launch deals every core, beside its buffers, makes the state that rides along: the generator register as
    launched, nothing owed. -/
theorem hE0 : iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts L lv)
    ⊢ (|={Set.univ}=> bigSep Finset.univ (E (F := F) 0) : sProp 𝕄) := by
  refine Pipeline.initEach L lv fun c => ?_
  iintro ⟨⟨-, HO, -, Hp, -⟩, -⟩
  imodintro
  isplitl [Hp]; · iexists _; iexact Hp
  iexists ∅; iexact HO

/-- The state that rides along ends owing nothing. -/
theorem hE2 (c : Dev nD) : E (F := F) 2 c ⊢ (iprop(∃ W, owes (c : Thread nD τ) (0 : CellTallies nD τ sig Unit) W) : sProp 𝕄) := by
  iintro ⟨-, HO⟩; iexact HO

set_option backward.isDefEq.respectTransparency.types false in
/-- The frame: every weakly fair execution terminates, nothing faults, both argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  Gen.frame_cond m emb₁ () 𝒱₀ L lv (fun _ _ => rfl) ρ (outs m) (pdats m) 0 (fun _ => iprop(emp))
    (initOf (Pipeline.cells cfgs cellOf_inj) (Pipeline.launchToks cfgs cellOf_inj)) hu₀ E (hE0 ρ) hE2
    (reg0 m) (fun c => .rfl) (fun c => .rfl) (reg1 m) (fun c => .rfl) (fun c => .rfl)

set_option backward.isDefEq.respectTransparency.types false in
/-- The run with every unscoped buffer read at the end: each holds what the last valuation says. -/
theorem run_all : θ_run defs (onTc (τ := τ) (main (F := F))) ⟨m, fun _ => 0, ρ⟩ (fun r => ∀ c : Dev nD,
      ∀ b ∈ Pipeline.ucRefs τ sig, r.2.mem ((c : Thread nD τ).1, b) = V13 m (outs m) c b) := by
  refine Pipeline.θ_run_regions_kit_dev (pcfgs (F := F)) adm (pdats m) () cellOf_inj emb₁ defs₀ 𝒱₀ L lv m ρ main
    (segs m (outs m) 𝒱₀ L lv E () (pdats m) (reg0 m) (reg1 m))
    (fun c Q => by
      rewrite [main_chain c, Pipeline.Seg.run_eq_chain,
        show (segs m (outs m) 𝒱₀ L lv E () (pdats m) (reg0 m) (reg1 m) c).map Pipeline.Seg.prog = [
          Prog.lift (.customCall (Pipeline.entry 0) ()),
          StableHlo.seq hostOps1,
          StableHlo.seq hostOps1_1,
          StableHlo.seq hostOps1_2,
          StableHlo.seq hostOps1_3,
          StableHlo.seq hostOps1_4,
          StableHlo.seq hostOps1_5,
          StableHlo.seq hostOps1_6,
          StableHlo.seq hostOps1_7,
          StableHlo.seq hostOps1_8,
          StableHlo.seq hostOps1_9,
          StableHlo.seq hostOps1_10,
          Prog.lift (.customCall (Pipeline.entry 1) ()) ] from rfl]
      exact .rfl)
    (fun c => by simp only [segs, Pipeline.Seg.pipes_host, Pipeline.Seg.pipes_region, Pipeline.Seg.pipes_nil]; decide)
    0 (fun _ _ => rfl) (fun _ => iprop(emp))
    (initOf (Pipeline.cells cfgs cellOf_inj) (Pipeline.launchToks cfgs cellOf_inj)) hu₀
    (T₀ := fun c => iprop(StableHlo.held (c : Thread nD τ) (Pipeline.ucRefs τ sig) (V0 m c) ∗ R c))
    (Tₙ := fun c => StableHlo.held (c : Thread nD τ) (Pipeline.ucRefs τ sig) (V13 m (outs m) c))
    (hch := fun c => ⟨.rfl, .rfl, .rfl, .rfl, .rfl, .rfl, .rfl, .rfl, .rfl, .rfl, .rfl, .rfl, .rfl, sep_mono .rfl (hE2 c)⟩)
    (hinit := ?_) (QY := fun c s => ∀ b ∈ Pipeline.ucRefs τ sig, s.mem ((c : Thread nD τ).1, b) = V13 m (outs m) c b)
    (hfin := fun c s' => ?_) (hQ := fun _ h => h)
  · -- the launch: the unscoped buffers are held at the launch contents; the rest makes the riding state on every core
    have hsplit : (bigSep Finset.univ fun c : Dev nD => iprop(unscopedBufs c (fun b => m ((c.tc : Thread nD τ).loc b)) ∗ unscopedSems0 c
          ∗ owes (c.tc : Thread nD τ) ((0 : Dev nD → CellTallies nD τ sig Unit) c) ∅ ∗ Pipeline.launchCred (0 : Dev nD → CellTallies nD τ sig Unit) c
          ∗ prngReg c (ρ c) ∗ (iprop(emp) : sProp 𝕄)))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) ((0 : Dev nD → CellTallies nD τ sig Unit) c) ∅
              ∗ Pipeline.launchCred (0 : Dev nD → CellTallies nD τ sig Unit) c ∗ prngReg c (ρ c) ∗ (iprop(emp) : sProp 𝕄)))
            : sProp 𝕄) := by
      rw [← bigSep_sep']
      exact bigSep_mono fun c _ => by
        rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (hE0 (F := F) ρ) $$ [Hr Hla] with HE
    · isplitl [Hr]; · iexact Hr
      iexact Hla
    imodintro
    rw [bigSep_sep' Finset.univ (fun c : Dev nD => StableHlo.held (c : Thread nD τ) (Pipeline.ucRefs τ sig) (V0 m c)) (fun c : Dev nD => R (F := F) c)]
    isplitl [Hh]; · iexact Hh
    iexact HE
  · -- the end: every unscoped buffer read off the last valuation
    unfold StableHlo.held
    iintro ⟨Hh, HSI⟩
    imodintro
    iapply (pointsTo_read_all (Pipeline.ucRefs τ sig) (fun b => ((c : Thread nD τ).1, b)) (V13 m (outs m) c) s')
    isplitl [Hh] <;> iassumption

end Cert.KernelIdeal.Hand

end
-- ==== Proof.Spec.lean ====
/-
  The mathematics shared by both programs, stated once and free of either program.

  A zonotope with centre c : R^4096 and generator matrix e : R^(8192 x 4096) is pushed through ReLU.
  With the column radius  a_j = sum_i |e_ij|  the interval of coordinate j is [c_j - a_j, c_j + a_j];
  a coordinate is "crossing" when that interval straddles 0 and "active" when its lower end is >= 0.
  Both programs apply the SAME chain of elementwise host operations to (c, a); it is named here once,
  as three functions of (c, a), and is never opened by the proofs: only the radius a and the final
  matrix are computed differently by the two programs.
-/
import Idealize.ShloMosaic.PureOps.Ideal
import Idealize.ShloMosaic.Lib.ValueIdx

noncomputable section

namespace Cert.Spec

open Idealize.ShloMosaic

abbrev S4096 : Shape := ⟨1, ![4096]⟩
abbrev S_ : Shape := ⟨0, ![]⟩

theorem bcast0 : S_.BroadcastsInDim S4096 (![] : Fin 0 → Fin S4096.rank) := by decide

variable {F : FTy → Type} [FloatOps F]

/-- A scalar float word spread over the 4096 coordinates. -/
def splat (w : BitVec 32) : FVec F S4096 .f32 :=
  broadcastInDim S4096 ![] bcast0 (constant S_ .f32 w)

/-- upper end c + a and lower end c - a of each coordinate's interval -/
def ub (c a : FVec F S4096 .f32) : FVec F S4096 .f32 := addf c a
def lb (c a : FVec F S4096 .f32) : FVec F S4096 .f32 := subf c a

/-- crossing: ub > 0 and lb < 0 -/
def cross (c a : FVec F S4096 .f32) : IVec S4096 1 :=
  andi (cmpf .ogt (ub c a) (splat 0x00000000#32)) (cmpf .olt (lb c a) (splat 0x00000000#32))

/-- stably active: lb >= 0 -/
def act (c a : FVec F S4096 .f32) : IVec S4096 1 := cmpf .oge (lb c a) (splat 0x00000000#32)

/-- slope = ub / (ub - lb) on crossing coordinates, 0 elsewhere (the divisor is 1 off the crossing set) -/
def slope (c a : FVec F S4096 .f32) : FVec F S4096 .f32 :=
  select (cross c a)
    (Host.divf (ub c a) (select (cross c a) (subf (ub c a) (lb c a)) (splat 0x3F800000#32)))
    (splat 0x00000000#32)

/-- mu = -slope * lb * 1/2 on crossing coordinates, 0 elsewhere -/
def mu (c a : FVec F S4096 .f32) : FVec F S4096 .f32 :=
  select (cross c a) (mulf (mulf (Host.negf (slope c a)) (lb c a)) (splat 0x3F000000#32)) (splat 0x00000000#32)

/-- the new centre: c where active, slope * c + mu elsewhere -/
def newCenter (c a : FVec F S4096 .f32) : FVec F S4096 .f32 :=
  select (act c a) c (addf (mulf (slope c a) c) (mu c a))

/-- the column scale: 1 where active, slope elsewhere -/
def colScale (c a : FVec F S4096 .f32) : FVec F S4096 .f32 :=
  select (act c a) (splat 0x3F800000#32) (slope c a)

/-! ## The two results that the programs compute by different routes, index by index -/

abbrev S8192x4096 : Shape := ⟨2, ![8192, 4096]⟩
abbrev S12288x4096 : Shape := ⟨2, ![12288, 4096]⟩

open ValueIdx in
/-- The column radius a_j: the zero word plus the sum over the 8192 rows of |e_ij| (|x| is max x (-x) on the
    extended reals). -/
def apt (e : FVec Ideal S8192x4096 .f32) : FVec Ideal S4096 .f32 :=
  fun j => Ideal.ofBits .f32 0x00000000#32 + ∑ i : Fin 8192, max (e (ix2 i (j 0))) (-(e (ix2 i (j 0))))

open ValueIdx in
/-- The new generator matrix: its first 8192 rows are the rows of e scaled column by column by `cs`; its last 4096
    rows are diag(mu): row 8192 + r holds mu_r in column r and the zero word elsewhere. -/
def newErr (e : FVec Ideal S8192x4096 .f32) (cs mu : FVec Ideal S4096 .f32) : FVec Ideal S12288x4096 .f32 :=
  fun k => if h : (k 0).val < 8192 then e (ix2 ⟨(k 0).val, h⟩ (k 1)) * cs (ix1 (k 1))
    else if (k 1).val + 8192 = (k 0).val then mu (ix1 (k 1)) else Ideal.ofBits .f32 0x00000000#32

end Cert.Spec

end
-- ==== Proof.KI.Host.lean ====
/-
  The elementwise stretch between the two kernel regions, read once.

  With c the centre (the first argument) and a the column radius (the row the first region leaves, taken as a
  4096-vector), the operations between the regions compute, coordinate by coordinate,
    ub = c + a,  lb = c - a,  cross = (ub > 0) and (lb < 0),  act = (lb >= 0),
    slope = ub / (ub - lb) on crossing coordinates and 0 elsewhere,
    mu = -slope * lb * 1/2 on crossing coordinates and 0 elsewhere,
    the new centre = c where active and slope * c + mu elsewhere,
    the column scale = 1 where active and slope elsewhere,
  and hand the column scale and mu to the second region as rows of a 1 x 4096 matrix. These are the functions
  Cert.Spec.newCenter, Cert.Spec.colScale and Cert.Spec.mu of (c, a); nothing below evaluates a vector.
-/
import proofs.«176906_j7138235646107_1_alg».proof.Proof.Gen.KernelIdeal.Regions
import proofs.«176906_j7138235646107_1_alg».proof.Proof.Spec
import Idealize.ShloMosaic.Lib.Pipeline.Value

set_option maxRecDepth 16384

noncomputable section

namespace Cert.KernelIdeal.Hand

open Cert.KernelIdeal.Gen
open Idealize.ShloMosaic Idealize.ShloMosaic.TcCoe

variable {F : FTy → Type} [FloatOps F]

/-! ## A 1 x 4096 row as a 4096-vector and back -/

/-- The one row of a 1 x 4096 matrix as a 4096-vector: the same entries in row-major order. -/
def aptRow (x : FVec F S1x4096 .f32) : FVec F S4096 .f32 :=
  fun i => shapeCast S4096 x shapeCasts_S1x4096_S4096 i

/-- Entry j of the vector is entry (0, j) of the row. -/
theorem aptRow_apply (x : FVec F S1x4096 .f32) (j : Fin 4096) :
    aptRow x (ValueIdx.ix1 j) = x (ValueIdx.ix2 (0 : Fin 1) j) := by
  unfold aptRow
  refine shapeCast_apply x _ _ _ ?_
  rw [Shape.rowMajor_val_two, Shape.rowMajor_val_one]
  simp

/-- A 4096-vector as the one row of a 1 x 4096 matrix: the same entries in row-major order. -/
def rowOf (x : FVec F S4096 .f32) : FVec F S1x4096 .f32 :=
  fun i => shapeCast S1x4096 x shapeCasts_S4096_S1x4096 i

/-- Entry (0, j) of the row is entry j of the vector. -/
theorem rowOf_apply (x : FVec F S4096 .f32) (j : Fin 4096) :
    rowOf x (ValueIdx.ix2 (0 : Fin 1) j) = x (ValueIdx.ix1 j) := by
  unfold rowOf
  refine shapeCast_apply x _ _ _ ?_
  rw [Shape.rowMajor_val_two, Shape.rowMajor_val_one]
  simp

/-! ## The eleven stretches applied in order to any contents

Stated over arbitrary contents W of the buffers, so that the contents the stretch is entered from stay a variable. -/

section Stretch

variable (W : Valuation τ sig (Elt F))

/-- The buffers after the eleven stretches, from contents W. -/
abbrev afterAll : Valuation τ sig (Elt F) :=
  StableHlo.after hostOps1_10 (StableHlo.after hostOps1_9 (StableHlo.after hostOps1_8 (StableHlo.after hostOps1_7
    (StableHlo.after hostOps1_6 (StableHlo.after hostOps1_5 (StableHlo.after hostOps1_4 (StableHlo.after hostOps1_3
    (StableHlo.after hostOps1_2 (StableHlo.after hostOps1_1 (StableHlo.after hostOps1 W))))))))))

set_option maxHeartbeats 1000000 in
/-- The new centre: select(act, c, slope * c + mu). -/
theorem afterAll_center :
    afterAll W (Proc.devRef .tc main_v22) = Cert.Spec.newCenter (W main_arg0) (aptRow (W main_v0)) := by
  after_results_simp
  rfl

set_option maxHeartbeats 1000000 in
/-- The column scale select(act, 1, slope), as a row. -/
theorem afterAll_cs :
    afterAll W (Proc.devRef .tc main_v24) = rowOf (Cert.Spec.colScale (W main_arg0) (aptRow (W main_v0))) := by
  after_results_simp
  rfl

set_option maxHeartbeats 1000000 in
/-- mu = select(cross, -slope * lb * 1/2, 0), as a row. -/
theorem afterAll_mu :
    afterAll W (Proc.devRef .tc main_v25) = rowOf (Cert.Spec.mu (W main_arg0) (aptRow (W main_v0))) := by
  after_results_simp
  rfl

end Stretch

/-! ## The same at the program's contents -/

variable (m : (ℓ : Loc nD τ sig) → Buf (Elt F) ℓ) (outs : Outs (F := F)) (c : Dev nD)

/-- The first region leaves the centre as launched. -/
theorem V1_arg0 : V1 m outs c main_arg0 = m ((c : Thread nD τ).loc main_arg0) :=
  (V1_of m outs c main_arg0 (by decide)).trans rfl

/-- The new centre the second region is entered with. -/
theorem host_center :
    V12 m outs c main_v22 = Cert.Spec.newCenter (m ((c : Thread nD τ).loc main_arg0)) (aptRow (V1 m outs c main_v0)) := by
  have h := afterAll_center (V1 m outs c)
  rw [V1_arg0] at h
  exact h

/-- The column scale the second region is entered with, entry by entry. -/
theorem host_cs (j : Fin 4096) :
    V12 m outs c main_v24 (ValueIdx.ix2 (0 : Fin 1) j)
      = Cert.Spec.colScale (m ((c : Thread nD τ).loc main_arg0)) (aptRow (V1 m outs c main_v0)) (ValueIdx.ix1 j) := by
  have h := afterAll_cs (V1 m outs c)
  rw [V1_arg0] at h
  exact (congrFun h _).trans (rowOf_apply _ j)

/-- The diagonal mu the second region is entered with, entry by entry. -/
theorem host_mu (j : Fin 4096) :
    V12 m outs c main_v25 (ValueIdx.ix2 (0 : Fin 1) j)
      = Cert.Spec.mu (m ((c : Thread nD τ).loc main_arg0)) (aptRow (V1 m outs c main_v0)) (ValueIdx.ix1 j) := by
  have h := afterAll_mu (V1 m outs c)
  rw [V1_arg0] at h
  exact (congrFun h _).trans (rowOf_apply _ j)

/-- No stretch and no region writes the generator matrix: the second region finds it as launched. -/
theorem host_arg1 : V12 m outs c main_arg1 = m ((c : Thread nD τ).loc main_arg1) :=
  (V12_of m outs c main_arg1 (by decide)).trans <| (V11_of m outs c main_arg1 (by decide)).trans <| (V10_of m outs c main_arg1 (by decide)).trans <| (V9_of m outs c main_arg1 (by decide)).trans <| (V8_of m outs c main_arg1 (by decide)).trans <| (V7_of m outs c main_arg1 (by decide)).trans <| (V6_of m outs c main_arg1 (by decide)).trans <| (V5_of m outs c main_arg1 (by decide)).trans <| (V4_of m outs c main_arg1 (by decide)).trans <| (V3_of m outs c main_arg1 (by decide)).trans <| (V2_of m outs c main_arg1 (by decide)).trans <| (V1_of m outs c main_arg1 (by decide)).trans rfl

/-- The second region leaves the new centre as it found it. -/
theorem last_center : V13 m outs c main_v22 = V12 m outs c main_v22 :=
  V13_of m outs c main_v22 (by decide)

end Cert.KernelIdeal.Hand

end
-- ==== Proof.KI.Value0.lean ====
/-
  The value the first kernel region leaves in its output row.

  The region visits 16 row tiles of 512 rows of the generator matrix e : R^(8192 x 4096). A scratch row carries the
  running column sums: it is reset to the zero word at the first tile, every tile adds, column by column, the sum of
  |e_ij| over its own 512 rows, and after the last tile the row is copied to the output row, which is written back
  once. So the output row at column j ends holding  0 + sum_{i < 8192} |e_ij| : the first 512 (n + 1) terms after
  tile n, by induction on n, regrouped over the extended reals, where addition is associative and commutative.
-/
import proofs.«176906_j7138235646107_1_alg».proof.Proof.KI.Region0
import proofs.«176906_j7138235646107_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal.Gen
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-! ## One tile's contribution -/

/-- The index maps of the two windows, decided over the grid: tile `t` is block `(t, 0)` of the matrix, and the
    output row is always block `(0, 0)`. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0 :=
  (by decide +kernel : ∀ t : Fin grid0.N, _)

/-- Tile `t` of the matrix, and the matrix, as arrays of extended reals. -/
abbrev tile0 (c : Dev nD) (t : Fin cfg0.N) : FVec Ideal S512x4096 .f32 := iblk0 V c 0 t
abbrev mat0 (c : Dev nD) : FVec Ideal S8192x4096 .f32 := V c main_arg1

/-- Entry `(r, j)` of tile `t` is entry `(512 t + r, j)` of the matrix. -/
theorem iblk0_apply (c : Dev nD) (t : Fin cfg0.N) (r : Fin 512) (j : Fin 4096) :
    tile0 V c t (ix2 r j)
      = mat0 V c (ix2 ⟨512 * t.val + r.val, by
          have hN : cfg0.N = 16 := N_0; have := t.isLt; have := r.isLt; omega⟩ j) := by
  obtain ⟨e0, e1, -, -⟩ := idx_facts0 t
  unfold tile0 mat0 iblk0
  rw [View.read_apply]
  show V c main_arg1 _ = V c main_arg1 _
  congr 1
  funext a
  apply Fin.ext
  match a with
  | ⟨0, _⟩ => show win0_0.index t (0 : Fin 2) * 512 + 1 * r.val = 512 * t.val + r.val; omega
  | ⟨1, _⟩ => show win0_0.index t (1 : Fin 2) * 4096 + 1 * j.val = j.val; omega

/-- The index the column reduction inserts: row `k` of column `j`. -/
theorem lift0 (j : Fin 4096) (k : Fin 512) :
    reduces_S512x4096_S4096.lift (ix1 j) k = ix2 k j := by
  funext a
  apply Fin.ext
  match a with
  | ⟨0, _⟩ => rfl
  | ⟨1, _⟩ => rfl

/-- A tile's step at an entry of the row: the row before plus the tile's column sum of absolute values. -/
theorem pay2_apply (s : FVec Ideal S1x4096 .f32) (x : FVec Ideal S512x4096 .f32) (j : Fin 4096) :
    k0_pay2 (F := Ideal) s x (ix2 (0 : Fin 1) j)
      = s (ix2 (0 : Fin 1) j) + ∑ r : Fin 512, max (x (ix2 r j)) (-(x (ix2 r j))) := by
  unfold k0_pay2
  simp only [shapeCast_self]
  rw [addf_apply, shapeCast_a_1a_apply]
  congr 1
  refine (Ideal.multiReduction_add_single (absf x) 0x00000000#32 reduces_S512x4096_S4096 _ _ (ix1 j)).trans ?_
  show ∑ k : Fin 512, absf x (reduces_S512x4096_S4096.lift (ix1 j) k) = _
  exact Finset.sum_congr rfl fun k _ => by rw [lift0]; rfl

/-- The reset row holds the zero word at every entry. -/
theorem pay1_apply (i : S1x4096.Idx) : k0_pay1 (F := Ideal) i = Ideal.ofBits .f32 0x00000000#32 := by
  unfold k0_pay1
  simp only [shapeCast_self]
  rfl

/-! ## The running sum after tile `n` -/

/-- Column `j` of |e|, continued by zero past the last row. -/
def absCol (e : FVec Ideal S8192x4096 .f32) (j : Fin 4096) (k : ℕ) : EReal :=
  if h : k < 8192 then max (e (ix2 ⟨k, h⟩ j)) (-(e (ix2 ⟨k, h⟩ j))) else 0

theorem absCol_of_lt (e : FVec Ideal S8192x4096 .f32) (j : Fin 4096) {k : ℕ} (h : k < 8192) :
    absCol e j k = max (e (ix2 ⟨k, h⟩ j)) (-(e (ix2 ⟨k, h⟩ j))) := dif_pos h

/-- Tile `t`'s column sum is the next 512 terms of the column. -/
theorem tile_sum (c : Dev nD) (t : Fin cfg0.N) (j : Fin 4096) :
    ∑ r : Fin 512, max (tile0 V c t (ix2 r j)) (-(tile0 V c t (ix2 r j)))
      = ∑ r ∈ Finset.range 512, absCol (mat0 V c) j (512 * t.val + r) := by
  rw [← Fin.sum_univ_eq_sum_range (fun r => absCol (mat0 V c) j (512 * t.val + r)) 512]
  refine Finset.sum_congr rfl fun r _ => ?_
  have hN : cfg0.N = 16 := N_0
  have := t.isLt
  have := r.isLt
  rw [iblk0_apply, absCol_of_lt _ _ (by omega)]

/-- After tile `n` the scratch row holds, in column `j`, the zero word plus the first `512 (n + 1)` terms. -/
theorem acc0_apply (c : Dev nD) (j : Fin 4096) : ∀ (n : ℕ) (h : n < cfg0.N),
    acc0 V c n h (ix2 (0 : Fin 1) j)
      = Ideal.ofBits .f32 0x00000000#32 + ∑ k ∈ Finset.range (512 * (n + 1)), absCol (mat0 V c) j k
  | 0, h => by
    show k0_pay2 (F := Ideal) (k0_pay1 (F := Ideal)) (tile0 V c ⟨0, h⟩) (ix2 (0 : Fin 1) j) = _
    rw [pay2_apply, pay1_apply, tile_sum]
    simp only [Nat.mul_zero, Nat.zero_add, Nat.mul_one]
  | n + 1, h => by
    show k0_pay2 (F := Ideal) (acc0 V c n (Nat.lt_of_succ_lt h)) (tile0 V c ⟨n + 1, h⟩) (ix2 (0 : Fin 1) j) = _
    rw [pay2_apply, acc0_apply c j n, tile_sum, add_assoc, Nat.mul_succ 512 (n + 1), Finset.sum_range_add]

/-! ## The output row after the run -/

/-- The row the scratch holds after the last tile, as contents of the output array. -/
abbrev row0 (c : Dev nD) : Buf (Elt Ideal) ((c : Thread nD τ).loc main_v0) :=
  acc0 V c 15 (by rw [show cfg0.N = 16 from N_0]; decide)

/-- The one write-back, after the last tile, writes that row: block `(0, 0)` of the `[1, 4096]` array is the array. -/
theorem flushed0_eq (c : Dev nD) (t : Fin cfg0.N) (hf : (cfg0.win 1).flush t = true) :
    (dat0 V c).flushed 1 t = ((cfg0.win 1).blk t).view.read (Elt Ideal) (row0 V c) := by
  have hN : cfg0.N = 16 := N_0
  have h15 : t.val = 15 := by have := (flush0_1 t).mp hf; have := t.isLt; omega
  obtain rfl : t = t0_15 := Fin.ext h15
  show (cfg0.win 1).cut (grid0.coords t0_15) ((dat0 V c).after 1 t0_15) = _
  rw [after0_1]
  have hz' : (fun a => win0_1.index t0_15 a * main_v0.ty.shape.size a) = fun _ => 0 :=
    funext fun a => by fin_cases a <;> decide
  exact (Memref.read_access_unit_zero (Elt Ideal) main_v0 hz' (fun a => by rw [congrFun hz' a]; simp) (row0 V c)).symm

/-- So the output array ends holding that row: the last point's block covers every index. -/
theorem final0 (c : Dev nD) : (dat0 V c).arrAt 1 cfg0.N = row0 V c :=
  (dat0 V c).arrAt_eq_of_cover 1 (row0 V c) (flushed0_eq V c) fun i =>
    ⟨t0_15, (flush0_1 t0_15).mpr rfl, by
      show i ∈ ((View.whole main_v0).slice (win0_1.rect t0_15)).set
      rw [View.set_slice_whole, Rect.mem_set_unit]
      intro a
      have h0 : (i 0 : Nat) < 1 := (i 0).isLt
      have h1 : (i 1 : Nat) < 4096 := (i 1).isLt
      match a with
      | ⟨0, _⟩ => show win0_1.index t0_15 0 * win0_1.size 0 ≤ (i 0 : Nat) ∧ (i 0 : Nat) < win0_1.index t0_15 0 * win0_1.size 0 + win0_1.xsize (grid0.coords t0_15) 0
                  rw [show win0_1.index t0_15 0 * win0_1.size 0 = 0 from by decide +kernel, show win0_1.xsize (grid0.coords t0_15) 0 = 1 from by decide +kernel]; omega
      | ⟨1, _⟩ => show win0_1.index t0_15 1 * win0_1.size 1 ≤ (i 1 : Nat) ∧ (i 1 : Nat) < win0_1.index t0_15 1 * win0_1.size 1 + win0_1.xsize (grid0.coords t0_15) 1
                  rw [show win0_1.index t0_15 1 * win0_1.size 1 = 0 from by decide +kernel, show win0_1.xsize (grid0.coords t0_15) 1 = 4096 from by decide +kernel]; omega⟩

/-- The output row at column `j` after the run is the column radius: the zero word plus the sum over the 8192 rows of
    the absolute values of column `j`. -/
theorem apt_value (c : Dev nD) (j : Fin 4096) :
    (dat0 V c).arrAt 1 cfg0.N (ValueIdx.ix2 (0 : Fin 1) j) = Cert.Spec.apt (V c main_arg1) (ValueIdx.ix1 j) := by
  rw [final0]
  show acc0 V c 15 _ (ix2 (0 : Fin 1) j) = _
  rw [acc0_apply]
  show _ = Ideal.ofBits .f32 0x00000000#32 + ∑ i : Fin 8192, max (mat0 V c (ix2 i j)) (-(mat0 V c (ix2 i j)))
  refine congrArg (Ideal.ofBits .f32 0x00000000#32 + ·) ?_
  rw [show 512 * (15 + 1) = 8192 from by norm_num, ← Fin.sum_univ_eq_sum_range (absCol (mat0 V c) j) 8192]
  exact Finset.sum_congr rfl fun i _ => absCol_of_lt _ _ i.isLt

end Cert.KernelIdeal.Hand

end
-- ==== Proof.KI.Value1.lean ====
/-
  The value the second kernel region leaves in its output matrix: the new generator matrix, row by row.
  Tile t < 64 holds rows 128 t .. 128 t + 127 of e, each scaled column by column by the row cs; tile t >= 64 holds
  rows 128 (t - 64) .. of diag(mu), cut out of the row mu by comparing the column number with the global row number.
  The 96 tiles cover the 12288 rows, so the matrix ends at the specification's function of (e, cs, mu).
-/
import proofs.«176906_j7138235646107_1_alg».proof.Proof.KI.Region1
import proofs.«176906_j7138235646107_1_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal.Gen
open Idealize.ShloMosaic Idealize.ShloMosaic.TcCoe
open Idealize.SL.Sem
open Idealize.ShloMosaic.Pipeline (Dat Cfg Window)
open Idealize.ShloMosaic.ValueIdx

/-! ## The two payloads at an index -/

/-- The scaled tile at (r, j): the tile's entry times the row's entry in column j. -/
theorem scaled_apply (x : Vec Ideal S128x4096 .f32) (y : Vec Ideal S1x4096 .f32) (r : Fin 128) (j : Fin 4096) :
    k1_pay1 x y (ix2 r j) = x (ix2 r j) * y (ix2 (0 : Fin 1) j) := by
  show mulf (F := Ideal) (φ := .f32) x (broadcastTo S128x4096 (shapeCast S1x4096 (shapeCast S1x4096 y shapeCasts_S1x4096_S1x4096) shapeCasts_S1x4096_S1x4096) broadcasts_S1x4096_S128x4096) (ix2 r j) = _
  rw [mulf_apply, shapeCast_self, shapeCast_self, broadcastTo_1b_ab_apply]

/-- Equality of the two 32-bit words the diagonal test compares is equality of the numbers they stand for. -/
theorem diag_word (r j k : Nat) (hr : r < 128) (hj : j < 4096) (hk : 64 ≤ k) (hk' : k < 96) :
    IntOp.cmpi .eq (BitVec.ofNat 32 j) (IntOp.addi (BitVec.ofNat 32 r) (Scalar.muli (Scalar.subi (BitVec.ofNat 32 k) 64#32) 128#32)) = 1#1
      ↔ j = r + (k - 64) * 128 := by
  have e : IntOp.addi (BitVec.ofNat 32 r) (Scalar.muli (Scalar.subi (BitVec.ofNat 32 k) 64#32) 128#32) = BitVec.ofNat 32 (r + (k - 64) * 128) := by
    apply BitVec.eq_of_toNat_eq
    show (BitVec.ofNat 32 r + (BitVec.ofNat 32 k - 64#32) * 128#32).toNat = _
    simp only [BitVec.toNat_add, BitVec.toNat_mul, BitVec.toNat_sub, BitVec.toNat_ofNat, Nat.reducePow]
    omega
  rw [e]
  show BitVec.ofBool (BitVec.ofNat 32 j == BitVec.ofNat 32 (r + (k - 64) * 128)) = 1#1 ↔ _
  have hb : ∀ b : Bool, (BitVec.ofBool b = 1#1) ↔ b = true := fun b => by cases b <;> decide
  rw [hb, beq_iff_eq]
  constructor
  · intro h
    have h2 := congrArg BitVec.toNat h
    simp only [BitVec.toNat_ofNat, Nat.reducePow] at h2
    omega
  · intro h
    rw [h]

/-- The diagonal slab at (r, j): the row's entry in column j where j is the global row number r + 128 (i - 64),
    the zero word elsewhere. -/
theorem slab_apply (i : grid1.Coords) (y : Vec Ideal S1x4096 .f32) (r : Fin 128) (j : Fin 4096)
    (hi : 64 ≤ (i 0).val) (hi' : (i 0).val < 96) :
    k1_pay2 i y (ix2 r j) = if j.val = r.val + ((i 0).val - 64) * 128 then y (ix2 (0 : Fin 1) j) else Ideal.ofBits .f32 0x00000000#32 := by
  show Scalar.select (IntOp.cmpi .eq (iota .tc S128x4096 32 [1] iota_S128x4096_d1_w32 (ix2 r j))
      (IntOp.addi (iota .tc S128x4096 32 [0] iota_S128x4096_d0_w32 (ix2 r j)) (Scalar.muli (Scalar.subi (BitVec.ofNat 32 (i 0).val) 64#32) 128#32)))
      (broadcastTo (α := Ideal .f32) S128x4096 (shapeCast S1x4096 (shapeCast S1x4096 y shapeCasts_S1x4096_S1x4096) shapeCasts_S1x4096_S1x4096) broadcasts_S1x4096_S128x4096 (ix2 r j))
      (Ideal.ofBits .f32 0x00000000#32) = _
  rw [shapeCast_self, shapeCast_self, broadcastTo_1b_ab_apply, iota_single_apply, iota_single_apply]
  show Scalar.select (IntOp.cmpi .eq (BitVec.ofNat 32 j.val) (IntOp.addi (BitVec.ofNat 32 r.val) _)) _ _ = _
  unfold Scalar.select
  exact if_congr (diag_word r.val j.val (i 0).val r.isLt j.isLt hi hi') rfl rfl

/-! ## The index maps, decided once over the grid -/

/-- Tile t of the output sits at block row t; the tile of e read with it sits at block row t while t < 64; the two
    rows are whole; the grid's coordinate of point t is t. -/
theorem tile_index : ∀ t : Fin cfg1.N,
    win1_3.index t (0 : Fin 2) = t.val ∧ win1_3.index t (1 : Fin 2) = 0
    ∧ (t.val < 64 → win1_0.index t (0 : Fin 2) = t.val) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ ((grid1.coords t) 0).val = t.val :=
  (by decide +kernel : ∀ t : Fin grid1.N, _)

variable (V : (c : Dev nD) → (b : Ref sig .tc) → Buf (Elt Ideal) ((c : Thread nD τ).loc b))

/-! ## The input blocks, read where the output's tile says -/

/-- The tile of e at point t < 64 is rows 128 t .. 128 t + 127 of e. -/
theorem e_tile_apply (c : Dev nD) (t : Fin cfg1.N) (ht : t.val < 64) (r : Fin 128) (j : Fin 4096)
    (hR : 128 * t.val + r.val < 8192) :
    iblk1 V c 0 t (ix2 r j : S128x4096.Idx) = V c main_arg1 (ix2 (⟨128 * t.val + r.val, hR⟩ : Fin 8192) j : S8192x4096.Idx) := by
  obtain ⟨-, -, h0, h1, -⟩ := tile_index t
  unfold iblk1
  rw [View.read_apply]
  show V c main_arg1 _ = V c main_arg1 _
  congr 1
  funext a
  apply Fin.ext
  match a with
  | ⟨0, _⟩ => show win1_0.index t (0 : Fin 2) * 128 + 1 * r.val = 128 * t.val + r.val; rw [h0 ht]; omega
  | ⟨1, _⟩ => show win1_0.index t (1 : Fin 2) * 4096 + 1 * j.val = j.val; rw [h1]; omega

/-- The row cs as the region reads it is the whole row. -/
theorem cs_row_apply (c : Dev nD) (t : Fin cfg1.N) (j : Fin 4096) :
    iblk1 V c 1 t (ix2 (0 : Fin 1) j : S1x4096.Idx) = V c main_v24 (ix2 (0 : Fin 1) j : S1x4096.Idx) := by
  obtain ⟨-, -, -, -, h0, h1, -⟩ := tile_index t
  unfold iblk1
  rw [View.read_apply]
  show V c main_v24 _ = V c main_v24 _
  congr 1
  funext a
  apply Fin.ext
  match a with
  | ⟨0, _⟩ => show win1_1.index t (0 : Fin 2) * 1 + 1 * 0 = 0; rw [h0]
  | ⟨1, _⟩ => show win1_1.index t (1 : Fin 2) * 4096 + 1 * j.val = j.val; rw [h1]; omega

/-- The row mu as the region reads it is the whole row. -/
theorem mu_row_apply (c : Dev nD) (t : Fin cfg1.N) (j : Fin 4096) :
    iblk1 V c 2 t (ix2 (0 : Fin 1) j : S1x4096.Idx) = V c main_v25 (ix2 (0 : Fin 1) j : S1x4096.Idx) := by
  obtain ⟨-, -, -, -, -, -, h0, h1, -⟩ := tile_index t
  unfold iblk1
  rw [View.read_apply]
  show V c main_v25 _ = V c main_v25 _
  congr 1
  funext a
  apply Fin.ext
  match a with
  | ⟨0, _⟩ => show win1_2.index t (0 : Fin 2) * 1 + 1 * 0 = 0; rw [h0]
  | ⟨1, _⟩ => show win1_2.index t (1 : Fin 2) * 4096 + 1 * j.val = j.val; rw [h1]; omega

/-! ## The specification's matrix at a row, above and below row 8192 -/

theorem newErr_top (e : FVec Ideal Cert.Spec.S8192x4096 .f32) (cs mu : FVec Ideal Cert.Spec.S4096 .f32)
    (R : Fin 12288) (j : Fin 4096) (h : R.val < 8192) :
    Cert.Spec.newErr e cs mu (ix2 R j) = e (ix2 (⟨R.val, h⟩ : Fin 8192) j) * cs (ix1 j) := by
  unfold Cert.Spec.newErr
  exact dif_pos h

theorem newErr_bottom (e : FVec Ideal Cert.Spec.S8192x4096 .f32) (cs mu : FVec Ideal Cert.Spec.S4096 .f32)
    (R : Fin 12288) (j : Fin 4096) (h : ¬ R.val < 8192) :
    Cert.Spec.newErr e cs mu (ix2 R j) = if j.val + 8192 = R.val then mu (ix1 j) else Ideal.ofBits .f32 0x00000000#32 := by
  unfold Cert.Spec.newErr
  exact dif_neg h

/-! ## What each point writes back, and the whole matrix -/

/-- What point t writes back is tile t of the specification's matrix. -/
theorem tile_written (c : Dev nD) (cs mu : FVec Ideal Cert.Spec.S4096 .f32)
    (hcs : ∀ j : Fin 4096, V c main_v24 (ix2 (0 : Fin 1) j) = cs (ix1 j))
    (hmu : ∀ j : Fin 4096, V c main_v25 (ix2 (0 : Fin 1) j) = mu (ix1 j)) (t : Fin cfg1.N) :
    (dat1 V c).flushed 3 t = ((cfg1.win 3).blk t).view.read (Elt Ideal) (Cert.Spec.newErr (V c main_arg1) cs mu) := by
  have hN : t.val < 96 := lt_of_lt_of_eq t.isLt N_1
  obtain ⟨h30, h31, -, -, -, -, -, -, hco⟩ := tile_index t
  show (cfg1.win 3).cut (grid1.coords t) ((dat1 V c).after 3 t) = _
  rw [after1_3]
  funext y
  obtain ⟨r, j, rfl⟩ : ∃ (r : Fin 128) (j : Fin 4096), y = ix2 r j := ⟨y 0, y 1, eq_ix2 (n0 := 128) (n1 := 4096) y⟩
  have hr : r.val < 128 := r.isLt
  have hR : 128 * t.val + r.val < 12288 := by omega
  have hemb : ((cfg1.win 3).blk t).view.emb (ix2 r j : S128x4096.Idx) = (ix2 (⟨128 * t.val + r.val, hR⟩ : Fin 12288) j : S12288x4096.Idx) := by
    funext a; apply Fin.ext
    match a with
    | ⟨0, _⟩ => show win1_3.index t (0 : Fin 2) * 128 + 1 * r.val = 128 * t.val + r.val; rw [h30]; omega
    | ⟨1, _⟩ => show win1_3.index t (1 : Fin 2) * 4096 + 1 * j.val = j.val; rw [h31]; omega
  show out1_3 V c t (ix2 r j : S128x4096.Idx) = Cert.Spec.newErr (V c main_arg1) cs mu (((cfg1.win 3).blk t).view.emb (ix2 r j : S128x4096.Idx))
  rw [hemb]
  unfold out1_3
  by_cases ht : t.val < 64
  · rw [if_pos ht]
    have hR' : 128 * t.val + r.val < 8192 := by omega
    refine (scaled_apply _ _ r j).trans ?_
    rw [e_tile_apply V c t ht r j hR', cs_row_apply V c t j, hcs j]
    exact (newErr_top _ cs mu ⟨128 * t.val + r.val, hR⟩ j hR').symm
  · rw [if_neg ht]
    refine (slab_apply (grid1.coords t) _ r j (by rw [hco]; omega) (by rw [hco]; exact hN)).trans ?_
    rw [mu_row_apply V c t j, hmu j, hco]
    refine Eq.trans ?_ (newErr_bottom _ cs mu ⟨128 * t.val + r.val, hR⟩ j (by show ¬ 128 * t.val + r.val < 8192; omega)).symm
    exact if_congr (by show j.val = r.val + (t.val - 64) * 128 ↔ j.val + 8192 = 128 * t.val + r.val; omega) rfl rfl

/-- An index of the matrix is in tile t iff its row is one of the tile's 128 rows. -/
theorem tile_mem (t : Fin cfg1.N) (i : S12288x4096.Idx) :
    i ∈ ((cfg1.win 3).blk t).view.set ↔ ∀ a : Fin 2, win1_3.index t a * S128x4096.size a ≤ (i a).val ∧ (i a).val < win1_3.index t a * S128x4096.size a + S128x4096.size a := by
  show i ∈ ((View.whole main_v26).slice (win1_3.rect t)).set ↔ _
  rw [View.set_slice_whole, Rect.mem_set_unit]
  exact Iff.rfl

/-- The 96 tiles cover the matrix: row R is in tile R / 128. -/
theorem tiles_cover (i : S12288x4096.Idx) :
    ∃ t : Fin cfg1.N, (cfg1.win 3).flush t = true ∧ i ∈ ((cfg1.win 3).blk t).view.set := by
  have hi0 : (i 0).val < 12288 := (i 0).isLt
  have hi1 : (i 1).val < 4096 := (i 1).isLt
  have hN : cfg1.N = 96 := N_1
  obtain ⟨t, ht⟩ : ∃ t : Fin cfg1.N, t.val = (i 0).val / 128 := ⟨⟨(i 0).val / 128, by rw [hN]; omega⟩, rfl⟩
  obtain ⟨h30, h31, -⟩ := tile_index t
  refine ⟨t, flush1_3 t, ?_⟩
  rw [tile_mem]
  intro a
  match a with
  | ⟨0, _⟩ => show win1_3.index t (0 : Fin 2) * 128 ≤ (i 0).val ∧ (i 0).val < win1_3.index t (0 : Fin 2) * 128 + 128; rw [h30]; omega
  | ⟨1, _⟩ => show win1_3.index t (1 : Fin 2) * 4096 ≤ (i 1).val ∧ (i 1).val < win1_3.index t (1 : Fin 2) * 4096 + 4096; rw [h31]; omega

/-- THE MATRIX after the region: the specification's new generator matrix of (e, cs, mu). -/
theorem newErr_value (c : Dev nD) (cs mu : FVec Ideal Cert.Spec.S4096 .f32)
    (hcs : ∀ j : Fin 4096, V c main_v24 (ValueIdx.ix2 (0 : Fin 1) j) = cs (ValueIdx.ix1 j))
    (hmu : ∀ j : Fin 4096, V c main_v25 (ValueIdx.ix2 (0 : Fin 1) j) = mu (ValueIdx.ix1 j)) :
    (dat1 V c).arrAt 3 cfg1.N = Cert.Spec.newErr (V c main_arg1) cs mu :=
  (dat1 V c).arrAt_eq_of_cover 3 (Cert.Spec.newErr (V c main_arg1) cs mu)
    (fun t _ => tile_written V c cs mu hcs hmu t) tiles_cover

end Cert.KernelIdeal.Hand

end
-- ==== Proof.KI.Values.lean ====
/-
  What the idealized kernel program returns, as functions of its two arguments.
  The first region leaves the column radius a = sum_i |e_i.| in its output row (the 16 tiles' partial sums
  regrouped into one sum over the 8192 rows); the host stretches apply the shared chain to (c, a); the second
  region writes the rows of e scaled by the column scale and below them diag(mu). Read off the last valuation
  of the run, the two results are `newCenter c a` and `newErr e (colScale c a) (mu c a)`.
-/
import proofs.«176906_j7138235646107_1_alg».proof.Proof.KI.Records
import proofs.«176906_j7138235646107_1_alg».proof.Proof.KI.Host
import proofs.«176906_j7138235646107_1_alg».proof.Proof.KI.Value0
import proofs.«176906_j7138235646107_1_alg».proof.Proof.KI.Value1

noncomputable section

namespace Cert.KernelIdeal.Hand

open Cert.KernelIdeal.Gen
open Idealize.ShloMosaic Idealize.ShloMosaic.TcCoe Idealize.SL.Sem

variable (m : (ℓ : Loc nD τ sig) → Buf (Elt Ideal) ℓ) (ρ : Dev nD → PrngReg)

/-- The row the first region leaves, reshaped to a vector, is the column radius of the argument matrix. -/
theorem apt_row (c : Dev nD) :
    aptRow (V1 m (outs m) c main_v0) = Cert.Spec.apt (m ((c : Thread nD τ).loc main_arg1)) := by
  funext j
  obtain ⟨j0, rfl⟩ : ∃ j0 : Fin 4096, j = ValueIdx.ix1 j0 := ⟨j 0, ValueIdx.eq_ix1 j⟩
  rw [aptRow_apply, V1_main_v0]
  exact apt_value (Vin m) c j0

theorem apt_rowA (c : Dev nD) :
    aptRow (V1 m (outsA m) c main_v0) = Cert.Spec.apt (m ((c : Thread nD τ).loc main_arg1)) := by
  rw [← V1_outs]; exact apt_row m c

/-- The new centre, read off the last valuation. -/
theorem center_value (c : Dev nD) :
    V13 m (outs m) c main_v22
      = Cert.Spec.newCenter (m ((c : Thread nD τ).loc main_arg0)) (Cert.Spec.apt (m ((c : Thread nD τ).loc main_arg1))) := by
  rw [last_center, host_center, apt_row]

/-- The new generator matrix, read off the last valuation. -/
theorem matrix_value (c : Dev nD) :
    V13 m (outs m) c main_v26
      = Cert.Spec.newErr (m ((c : Thread nD τ).loc main_arg1))
          (Cert.Spec.colScale (m ((c : Thread nD τ).loc main_arg0)) (Cert.Spec.apt (m ((c : Thread nD τ).loc main_arg1))))
          (Cert.Spec.mu (m ((c : Thread nD τ).loc main_arg0)) (Cert.Spec.apt (m ((c : Thread nD τ).loc main_arg1)))) := by
  rw [V13_main_v26]
  have h := newErr_value (Vmid m) c
    (Cert.Spec.colScale (m ((c : Thread nD τ).loc main_arg0)) (Cert.Spec.apt (m ((c : Thread nD τ).loc main_arg1))))
    (Cert.Spec.mu (m ((c : Thread nD τ).loc main_arg0)) (Cert.Spec.apt (m ((c : Thread nD τ).loc main_arg1))))
    (fun j => by rw [← apt_rowA m c]; exact host_cs m (outsA m) c j)
    (fun j => by rw [← apt_rowA m c]; exact host_mu m (outsA m) c j)
  rw [h]
  exact congrArg (fun e => Cert.Spec.newErr e _ _) (host_arg1 m (outsA m) c)

/-- The run of the idealized kernel program with both results named. -/
theorem value_run : θ_run (defs (F := Ideal)) (onTc (τ := τ) (main (F := Ideal))) ⟨m, fun _ => 0, ρ⟩ (fun r => ∀ c : Dev nD,
      r.2.mem ((c.tc : Thread nD τ).loc main_v22)
        = Cert.Spec.newCenter (m ((c.tc : Thread nD τ).loc main_arg0)) (Cert.Spec.apt (m ((c.tc : Thread nD τ).loc main_arg1)))
      ∧ r.2.mem ((c.tc : Thread nD τ).loc main_v26)
        = Cert.Spec.newErr (m ((c.tc : Thread nD τ).loc main_arg1))
            (Cert.Spec.colScale (m ((c.tc : Thread nD τ).loc main_arg0)) (Cert.Spec.apt (m ((c.tc : Thread nD τ).loc main_arg1))))
            (Cert.Spec.mu (m ((c.tc : Thread nD τ).loc main_arg0)) (Cert.Spec.apt (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1)) := by
  refine (θ_run (defs (F := Ideal)) _ _).mono (fun r h c => ?_) (run_all m ρ)
  have hb : ∀ (b : Ref sig .tc), ¬ (Proc.devRef .tc b : DevRef τ sig).isScoped →
      r.2.mem ((c : Thread nD τ).1, Proc.devRef .tc b) = V13 m (outs m) c b :=
    fun b hs => h c (Proc.devRef .tc b) (Finset.mem_filter.mpr ⟨StableHlo.devRef_mem_tcRefs b, hs⟩)
  exact ⟨(hb main_v22 (by decide)).trans (center_value m c), (hb main_v26 (by decide)).trans (matrix_value m c),
    (hb main_arg0 (by decide)).trans (V13_main_arg0 m (outs m) c), (hb main_arg1 (by decide)).trans (V13_main_arg1 m (outs m) c)⟩

end Cert.KernelIdeal.Hand

end
-- ==== Proof.RefRun.lean ====
/-
  The reference program's run, written out.

  Part 1. @main as one straight line of its fifty-four host operations: the six calls of its module-local functions are
  replaced by the callee's operations over the call's own buffers (three selects against a broadcast scalar, one plain
  select, one select against a broadcast scalar on the other side, and the diagonal embedding, whose own inner select is
  listed in its place). Every weakly fair execution terminates with each buffer at the fold of the operations over the
  launch contents.

  Part 2. The fold at the two result buffers, as the shared chain of elementwise operations (never opened) applied to
  the centre and to the column radius as the reference computes it, and the final matrix as the concatenation of the
  scaled rows and the diagonal block.

  Part 3. At the extended reals, index by index: the column radius is the zero word plus the sum over the rows of
  |e_ij|, and the concatenation is the matrix whose first 8192 rows are the scaled rows and whose last 4096 rows are
  the diagonal of mu.
-/
import proofs.«176906_j7138235646107_1_alg».proof.Proof.Gen.ReferenceIdeal
import proofs.«176906_j7138235646107_1_alg».proof.Proof.Spec
import Idealize.ShloMosaic.Lib.StableHlo.Run
import Idealize.ShloMosaic.Lib.IdealHost
import Idealize.ShloMosaic.Lib.KernelVsHost
import Idealize.ShloMosaic.Lib.Pipeline.Value

noncomputable section

namespace Cert.ReferenceIdeal.Hand

open Cert.ReferenceIdeal Cert.ReferenceIdeal.Gen Idealize.ShloMosaic Idealize.ShloMosaic.TcCoe Idealize.SL.Sem Idealize.ShloMosaic.StableHlo

/-! ## Part 1: the straight line and its run -/

variable {F : FTy → Type} [FloatOps F]

/-- The first fifty-three operations: everything before the final concatenation. -/
abbrev opsInit : List (HloOp τ sig (Elt F)) :=
  [ unary main_arg1 main_v0 (Host.absf : (⟨S8192x4096, .f32⟩ : BufTy).Contents (Elt F) → (⟨S8192x4096, .f32⟩ : BufTy).Contents (Elt F)),
    nullary main_cst (constant S_ .f32 0x00000000#32),
    binary main_v0 main_cst main_v1 ((fun x v => Host.reduceAdd x v reducesTo_S8192x4096_S4096_d0 h_S_) : (⟨S8192x4096, .f32⟩ : BufTy).Contents (Elt F) → (⟨S_, .f32⟩ : BufTy).Contents (Elt F) → (⟨S4096, .f32⟩ : BufTy).Contents (Elt F)),
    binary main_arg0 main_v1 main_v2 (addf : (⟨S4096, .f32⟩ : BufTy).Contents (Elt F) → (⟨S4096, .f32⟩ : BufTy).Contents (Elt F) → (⟨S4096, .f32⟩ : BufTy).Contents (Elt F)),
    binary main_arg0 main_v1 main_v3 (subf : (⟨S4096, .f32⟩ : BufTy).Contents (Elt F) → (⟨S4096, .f32⟩ : BufTy).Contents (Elt F) → (⟨S4096, .f32⟩ : BufTy).Contents (Elt F)),
    nullary main_cst_0 (constant S_ .f32 0x00000000#32),
    unary main_cst_0 main_v4 (broadcastInDim S4096 ![] bcast_S_S4096 : (⟨S_, .f32⟩ : BufTy).Contents (Elt F) → (⟨S4096, .f32⟩ : BufTy).Contents (Elt F)),
    binary main_v2 main_v4 main_v5 (cmpf .ogt : (⟨S4096, .f32⟩ : BufTy).Contents (Elt F) → (⟨S4096, .f32⟩ : BufTy).Contents (Elt F) → (⟨S4096, .i1⟩ : BufTy).Contents (Elt F)),
    nullary main_cst_1 (constant S_ .f32 0x00000000#32),
    unary main_cst_1 main_v6 (broadcastInDim S4096 ![] bcast_S_S4096 : (⟨S_, .f32⟩ : BufTy).Contents (Elt F) → (⟨S4096, .f32⟩ : BufTy).Contents (Elt F)),
    binary main_v3 main_v6 main_v7 (cmpf .olt : (⟨S4096, .f32⟩ : BufTy).Contents (Elt F) → (⟨S4096, .f32⟩ : BufTy).Contents (Elt F) → (⟨S4096, .i1⟩ : BufTy).Contents (Elt F)),
    binary main_v5 main_v7 main_v8 (andi : (⟨S4096, .i1⟩ : BufTy).Contents (Elt F) → (⟨S4096, .i1⟩ : BufTy).Contents (Elt F) → (⟨S4096, .i1⟩ : BufTy).Contents (Elt F)),
    nullary main_cst_2 (constant S_ .f32 0x00000000#32),
    unary main_cst_2 main_v9 (broadcastInDim S4096 ![] bcast_S_S4096 : (⟨S_, .f32⟩ : BufTy).Contents (Elt F) → (⟨S4096, .f32⟩ : BufTy).Contents (Elt F)),
    binary main_v3 main_v9 main_v10 (cmpf .oge : (⟨S4096, .f32⟩ : BufTy).Contents (Elt F) → (⟨S4096, .f32⟩ : BufTy).Contents (Elt F) → (⟨S4096, .i1⟩ : BufTy).Contents (Elt F)),
    binary main_v2 main_v3 main_v11 (subf : (⟨S4096, .f32⟩ : BufTy).Contents (Elt F) → (⟨S4096, .f32⟩ : BufTy).Contents (Elt F) → (⟨S4096, .f32⟩ : BufTy).Contents (Elt F)),
    nullary main_cst_3 (constant S_ .f32 0x3F800000#32),
    TRef.unary (TRef.of (T := ⟨S_, .f32⟩) main_cst_3) main_call0.v0 (broadcastInDim S4096 ![] bcast_S_S4096),
    TRef.ternary (TRef.of (T := ⟨S4096, .i1⟩) main_v8) (TRef.of (T := ⟨S4096, .f32⟩) main_v11) main_call0.v0 main_call0.v1 select,
    binary main_v2 main_v12 main_v13 (Host.divf : (⟨S4096, .f32⟩ : BufTy).Contents (Elt F) → (⟨S4096, .f32⟩ : BufTy).Contents (Elt F) → (⟨S4096, .f32⟩ : BufTy).Contents (Elt F)),
    nullary main_cst_4 (constant S_ .f32 0x00000000#32),
    TRef.unary (TRef.of (T := ⟨S_, .f32⟩) main_cst_4) main_call1.v0 (broadcastInDim S4096 ![] bcast_S_S4096),
    TRef.ternary (TRef.of (T := ⟨S4096, .i1⟩) main_v8) (TRef.of (T := ⟨S4096, .f32⟩) main_v13) main_call1.v0 main_call1.v1 select,
    unary main_v14 main_v15 (Host.negf : (⟨S4096, .f32⟩ : BufTy).Contents (Elt F) → (⟨S4096, .f32⟩ : BufTy).Contents (Elt F)),
    binary main_v15 main_v3 main_v16 (mulf : (⟨S4096, .f32⟩ : BufTy).Contents (Elt F) → (⟨S4096, .f32⟩ : BufTy).Contents (Elt F) → (⟨S4096, .f32⟩ : BufTy).Contents (Elt F)),
    nullary main_cst_5 (constant S_ .f32 0x3F000000#32),
    unary main_cst_5 main_v17 (broadcastInDim S4096 ![] bcast_S_S4096 : (⟨S_, .f32⟩ : BufTy).Contents (Elt F) → (⟨S4096, .f32⟩ : BufTy).Contents (Elt F)),
    binary main_v16 main_v17 main_v18 (mulf : (⟨S4096, .f32⟩ : BufTy).Contents (Elt F) → (⟨S4096, .f32⟩ : BufTy).Contents (Elt F) → (⟨S4096, .f32⟩ : BufTy).Contents (Elt F)),
    nullary main_cst_6 (constant S_ .f32 0x00000000#32),
    TRef.unary (TRef.of (T := ⟨S_, .f32⟩) main_cst_6) main_call2.v0 (broadcastInDim S4096 ![] bcast_S_S4096),
    TRef.ternary (TRef.of (T := ⟨S4096, .i1⟩) main_v8) (TRef.of (T := ⟨S4096, .f32⟩) main_v18) main_call2.v0 main_call2.v1 select,
    binary main_v14 main_arg0 main_v20 (mulf : (⟨S4096, .f32⟩ : BufTy).Contents (Elt F) → (⟨S4096, .f32⟩ : BufTy).Contents (Elt F) → (⟨S4096, .f32⟩ : BufTy).Contents (Elt F)),
    binary main_v20 main_v19 main_v21 (addf : (⟨S4096, .f32⟩ : BufTy).Contents (Elt F) → (⟨S4096, .f32⟩ : BufTy).Contents (Elt F) → (⟨S4096, .f32⟩ : BufTy).Contents (Elt F)),
    TRef.ternary (TRef.of (T := ⟨S4096, .i1⟩) main_v10) (TRef.of (T := ⟨S4096, .f32⟩) main_arg0) (TRef.of (T := ⟨S4096, .f32⟩) main_v21) main_call3.v0 select,
    nullary main_cst_7 (constant S_ .f32 0x3F800000#32),
    TRef.unary (TRef.of (T := ⟨S_, .f32⟩) main_cst_7) main_call4.v0 (broadcastInDim S4096 ![] bcast_S_S4096),
    TRef.ternary (TRef.of (T := ⟨S4096, .i1⟩) main_v10) main_call4.v0 (TRef.of (T := ⟨S4096, .f32⟩) main_v14) main_call4.v1 select,
    unary main_v23 main_v24 (broadcastInDim S1x4096 ![1] bcast_S4096_S1x4096_1 : (⟨S4096, .f32⟩ : BufTy).Contents (Elt F) → (⟨S1x4096, .f32⟩ : BufTy).Contents (Elt F)),
    unary main_v24 main_v25 (broadcastInDim S8192x4096 ![0, 1] bcast_S1x4096_S8192x4096_0_1 : (⟨S1x4096, .f32⟩ : BufTy).Contents (Elt F) → (⟨S8192x4096, .f32⟩ : BufTy).Contents (Elt F)),
    binary main_arg1 main_v25 main_v26 (mulf : (⟨S8192x4096, .f32⟩ : BufTy).Contents (Elt F) → (⟨S8192x4096, .f32⟩ : BufTy).Contents (Elt F) → (⟨S8192x4096, .f32⟩ : BufTy).Contents (Elt F)),
    TRef.nullary main_call5.cst (constant S_ .f32 0x00000000#32),
    TRef.binary (TRef.of (T := ⟨S4096, .f32⟩) main_v19) main_call5.cst main_call5.v0 (fun x v => pad S4096 ![0] ![0] ![0] x v pads_S4096_S4096_000 h_S_),
    TRef.nullary main_call5.v1 (iotaInDim S4096x4096 32 0),
    TRef.nullary main_call5.v2 (iotaInDim S4096x4096 32 1),
    TRef.nullary main_call5.c (constantI S_ 32 0#32),
    TRef.unary main_call5.c main_call5.v3 (broadcastInDim S4096x4096 ![] bcast_S_S4096x4096),
    TRef.binary main_call5.v1 main_call5.v3 main_call5.v4 addi,
    TRef.binary main_call5.v4 main_call5.v2 main_call5.v5 (cmpi .eq),
    TRef.unary main_call5.v0 main_call5.v6 (broadcastInDim S4096x1 ![0] bcast_S4096_S4096x1_0),
    TRef.nullary main_call5.cst_0 (constant S_ .f32 0x00000000#32),
    TRef.unary main_call5.v6 main_call5.call0.v0 (broadcastInDim S4096x4096 ![0, 1] bcast_S4096x1_S4096x4096_0_1),
    TRef.unary main_call5.cst_0 main_call5.call0.v1 (broadcastInDim S4096x4096 ![] bcast_S_S4096x4096),
    TRef.ternary main_call5.v5 main_call5.call0.v0 main_call5.call0.v1 main_call5.call0.v2 select ]

/-- The last operation: the scaled generator rows above the diagonal block. -/
abbrev opLast : HloOp τ sig (Elt F) :=
  binary main_v26 main_v27 main_v28 ((fun a b => concatenate S12288x4096 0 [⟨S8192x4096, a⟩, ⟨S4096x4096, b⟩] concatenates_S8192x4096_S4096x4096_S12288x4096_d0) : (⟨S8192x4096, .f32⟩ : BufTy).Contents (Elt F) → (⟨S4096x4096, .f32⟩ : BufTy).Contents (Elt F) → (⟨S12288x4096, .f32⟩ : BufTy).Contents (Elt F))

/-- @main's fifty-four operations in order, the calls unfolded at their sites. -/
abbrev ops : List (HloOp τ sig (Elt F)) :=
  [ unary main_arg1 main_v0 (Host.absf : (⟨S8192x4096, .f32⟩ : BufTy).Contents (Elt F) → (⟨S8192x4096, .f32⟩ : BufTy).Contents (Elt F)),
    nullary main_cst (constant S_ .f32 0x00000000#32),
    binary main_v0 main_cst main_v1 ((fun x v => Host.reduceAdd x v reducesTo_S8192x4096_S4096_d0 h_S_) : (⟨S8192x4096, .f32⟩ : BufTy).Contents (Elt F) → (⟨S_, .f32⟩ : BufTy).Contents (Elt F) → (⟨S4096, .f32⟩ : BufTy).Contents (Elt F)),
    binary main_arg0 main_v1 main_v2 (addf : (⟨S4096, .f32⟩ : BufTy).Contents (Elt F) → (⟨S4096, .f32⟩ : BufTy).Contents (Elt F) → (⟨S4096, .f32⟩ : BufTy).Contents (Elt F)),
    binary main_arg0 main_v1 main_v3 (subf : (⟨S4096, .f32⟩ : BufTy).Contents (Elt F) → (⟨S4096, .f32⟩ : BufTy).Contents (Elt F) → (⟨S4096, .f32⟩ : BufTy).Contents (Elt F)),
    nullary main_cst_0 (constant S_ .f32 0x00000000#32),
    unary main_cst_0 main_v4 (broadcastInDim S4096 ![] bcast_S_S4096 : (⟨S_, .f32⟩ : BufTy).Contents (Elt F) → (⟨S4096, .f32⟩ : BufTy).Contents (Elt F)),
    binary main_v2 main_v4 main_v5 (cmpf .ogt : (⟨S4096, .f32⟩ : BufTy).Contents (Elt F) → (⟨S4096, .f32⟩ : BufTy).Contents (Elt F) → (⟨S4096, .i1⟩ : BufTy).Contents (Elt F)),
    nullary main_cst_1 (constant S_ .f32 0x00000000#32),
    unary main_cst_1 main_v6 (broadcastInDim S4096 ![] bcast_S_S4096 : (⟨S_, .f32⟩ : BufTy).Contents (Elt F) → (⟨S4096, .f32⟩ : BufTy).Contents (Elt F)),
    binary main_v3 main_v6 main_v7 (cmpf .olt : (⟨S4096, .f32⟩ : BufTy).Contents (Elt F) → (⟨S4096, .f32⟩ : BufTy).Contents (Elt F) → (⟨S4096, .i1⟩ : BufTy).Contents (Elt F)),
    binary main_v5 main_v7 main_v8 (andi : (⟨S4096, .i1⟩ : BufTy).Contents (Elt F) → (⟨S4096, .i1⟩ : BufTy).Contents (Elt F) → (⟨S4096, .i1⟩ : BufTy).Contents (Elt F)),
    nullary main_cst_2 (constant S_ .f32 0x00000000#32),
    unary main_cst_2 main_v9 (broadcastInDim S4096 ![] bcast_S_S4096 : (⟨S_, .f32⟩ : BufTy).Contents (Elt F) → (⟨S4096, .f32⟩ : BufTy).Contents (Elt F)),
    binary main_v3 main_v9 main_v10 (cmpf .oge : (⟨S4096, .f32⟩ : BufTy).Contents (Elt F) → (⟨S4096, .f32⟩ : BufTy).Contents (Elt F) → (⟨S4096, .i1⟩ : BufTy).Contents (Elt F)),
    binary main_v2 main_v3 main_v11 (subf : (⟨S4096, .f32⟩ : BufTy).Contents (Elt F) → (⟨S4096, .f32⟩ : BufTy).Contents (Elt F) → (⟨S4096, .f32⟩ : BufTy).Contents (Elt F)),
    nullary main_cst_3 (constant S_ .f32 0x3F800000#32),
    TRef.unary (TRef.of (T := ⟨S_, .f32⟩) main_cst_3) main_call0.v0 (broadcastInDim S4096 ![] bcast_S_S4096),
    TRef.ternary (TRef.of (T := ⟨S4096, .i1⟩) main_v8) (TRef.of (T := ⟨S4096, .f32⟩) main_v11) main_call0.v0 main_call0.v1 select,
    binary main_v2 main_v12 main_v13 (Host.divf : (⟨S4096, .f32⟩ : BufTy).Contents (Elt F) → (⟨S4096, .f32⟩ : BufTy).Contents (Elt F) → (⟨S4096, .f32⟩ : BufTy).Contents (Elt F)),
    nullary main_cst_4 (constant S_ .f32 0x00000000#32),
    TRef.unary (TRef.of (T := ⟨S_, .f32⟩) main_cst_4) main_call1.v0 (broadcastInDim S4096 ![] bcast_S_S4096),
    TRef.ternary (TRef.of (T := ⟨S4096, .i1⟩) main_v8) (TRef.of (T := ⟨S4096, .f32⟩) main_v13) main_call1.v0 main_call1.v1 select,
    unary main_v14 main_v15 (Host.negf : (⟨S4096, .f32⟩ : BufTy).Contents (Elt F) → (⟨S4096, .f32⟩ : BufTy).Contents (Elt F)),
    binary main_v15 main_v3 main_v16 (mulf : (⟨S4096, .f32⟩ : BufTy).Contents (Elt F) → (⟨S4096, .f32⟩ : BufTy).Contents (Elt F) → (⟨S4096, .f32⟩ : BufTy).Contents (Elt F)),
    nullary main_cst_5 (constant S_ .f32 0x3F000000#32),
    unary main_cst_5 main_v17 (broadcastInDim S4096 ![] bcast_S_S4096 : (⟨S_, .f32⟩ : BufTy).Contents (Elt F) → (⟨S4096, .f32⟩ : BufTy).Contents (Elt F)),
    binary main_v16 main_v17 main_v18 (mulf : (⟨S4096, .f32⟩ : BufTy).Contents (Elt F) → (⟨S4096, .f32⟩ : BufTy).Contents (Elt F) → (⟨S4096, .f32⟩ : BufTy).Contents (Elt F)),
    nullary main_cst_6 (constant S_ .f32 0x00000000#32),
    TRef.unary (TRef.of (T := ⟨S_, .f32⟩) main_cst_6) main_call2.v0 (broadcastInDim S4096 ![] bcast_S_S4096),
    TRef.ternary (TRef.of (T := ⟨S4096, .i1⟩) main_v8) (TRef.of (T := ⟨S4096, .f32⟩) main_v18) main_call2.v0 main_call2.v1 select,
    binary main_v14 main_arg0 main_v20 (mulf : (⟨S4096, .f32⟩ : BufTy).Contents (Elt F) → (⟨S4096, .f32⟩ : BufTy).Contents (Elt F) → (⟨S4096, .f32⟩ : BufTy).Contents (Elt F)),
    binary main_v20 main_v19 main_v21 (addf : (⟨S4096, .f32⟩ : BufTy).Contents (Elt F) → (⟨S4096, .f32⟩ : BufTy).Contents (Elt F) → (⟨S4096, .f32⟩ : BufTy).Contents (Elt F)),
    TRef.ternary (TRef.of (T := ⟨S4096, .i1⟩) main_v10) (TRef.of (T := ⟨S4096, .f32⟩) main_arg0) (TRef.of (T := ⟨S4096, .f32⟩) main_v21) main_call3.v0 select,
    nullary main_cst_7 (constant S_ .f32 0x3F800000#32),
    TRef.unary (TRef.of (T := ⟨S_, .f32⟩) main_cst_7) main_call4.v0 (broadcastInDim S4096 ![] bcast_S_S4096),
    TRef.ternary (TRef.of (T := ⟨S4096, .i1⟩) main_v10) main_call4.v0 (TRef.of (T := ⟨S4096, .f32⟩) main_v14) main_call4.v1 select,
    unary main_v23 main_v24 (broadcastInDim S1x4096 ![1] bcast_S4096_S1x4096_1 : (⟨S4096, .f32⟩ : BufTy).Contents (Elt F) → (⟨S1x4096, .f32⟩ : BufTy).Contents (Elt F)),
    unary main_v24 main_v25 (broadcastInDim S8192x4096 ![0, 1] bcast_S1x4096_S8192x4096_0_1 : (⟨S1x4096, .f32⟩ : BufTy).Contents (Elt F) → (⟨S8192x4096, .f32⟩ : BufTy).Contents (Elt F)),
    binary main_arg1 main_v25 main_v26 (mulf : (⟨S8192x4096, .f32⟩ : BufTy).Contents (Elt F) → (⟨S8192x4096, .f32⟩ : BufTy).Contents (Elt F) → (⟨S8192x4096, .f32⟩ : BufTy).Contents (Elt F)),
    TRef.nullary main_call5.cst (constant S_ .f32 0x00000000#32),
    TRef.binary (TRef.of (T := ⟨S4096, .f32⟩) main_v19) main_call5.cst main_call5.v0 (fun x v => pad S4096 ![0] ![0] ![0] x v pads_S4096_S4096_000 h_S_),
    TRef.nullary main_call5.v1 (iotaInDim S4096x4096 32 0),
    TRef.nullary main_call5.v2 (iotaInDim S4096x4096 32 1),
    TRef.nullary main_call5.c (constantI S_ 32 0#32),
    TRef.unary main_call5.c main_call5.v3 (broadcastInDim S4096x4096 ![] bcast_S_S4096x4096),
    TRef.binary main_call5.v1 main_call5.v3 main_call5.v4 addi,
    TRef.binary main_call5.v4 main_call5.v2 main_call5.v5 (cmpi .eq),
    TRef.unary main_call5.v0 main_call5.v6 (broadcastInDim S4096x1 ![0] bcast_S4096_S4096x1_0),
    TRef.nullary main_call5.cst_0 (constant S_ .f32 0x00000000#32),
    TRef.unary main_call5.v6 main_call5.call0.v0 (broadcastInDim S4096x4096 ![0, 1] bcast_S4096x1_S4096x4096_0_1),
    TRef.unary main_call5.cst_0 main_call5.call0.v1 (broadcastInDim S4096x4096 ![] bcast_S_S4096x4096),
    TRef.ternary main_call5.v5 main_call5.call0.v0 main_call5.call0.v1 main_call5.call0.v2 select,
    binary main_v26 main_v27 main_v28 ((fun a b => concatenate S12288x4096 0 [⟨S8192x4096, a⟩, ⟨S4096x4096, b⟩] concatenates_S8192x4096_S4096x4096_S12288x4096_d0) : (⟨S8192x4096, .f32⟩ : BufTy).Contents (Elt F) → (⟨S4096x4096, .f32⟩ : BufTy).Contents (Elt F) → (⟨S12288x4096, .f32⟩ : BufTy).Contents (Elt F)) ]

set_option maxRecDepth 8192 in
theorem ops_eq : (ops : List (HloOp τ sig (Elt F))) = opsInit ++ [opLast] := rfl

/-- The fold over a line with one more operation at its end is that operation's result over the line's fold. -/
theorem after_snoc {Val : EltTy → Type} (l : List (HloOp τ sig Val)) (op : HloOp τ sig Val) (V : Valuation τ sig Val) :
    after (l ++ [op]) V = op.result (after l V) := by
  induction l generalizing V with
  | nil => rfl
  | cons o l ih => simp only [List.cons_append, after_cons, ih]

set_option maxRecDepth 8192 in
set_option maxHeartbeats 1000000 in
/-- @main is that straight line: the functions' bodies unfolded at their calls, the sequencing reassociated. -/
theorem main_eq (c : Dev nD) : main (F := F) c = seq ops := by
  simp only [main, fn_where.body, fn_where_0.body, fn_where_1.body, fn_where_2.body, fn_diag.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops_sub : (ops : List (HloOp τ sig (Elt F))).Forall fun op => op.bufs ⊆ tcRefs τ sig :=
  ⟨unary_bufs_sub .., nullary_bufs_sub .., binary_bufs_sub .., binary_bufs_sub .., binary_bufs_sub .., nullary_bufs_sub ..,
    unary_bufs_sub .., binary_bufs_sub .., nullary_bufs_sub .., unary_bufs_sub .., binary_bufs_sub .., binary_bufs_sub ..,
    nullary_bufs_sub .., unary_bufs_sub .., binary_bufs_sub .., binary_bufs_sub .., nullary_bufs_sub .., unary_bufs_sub ..,
    ternary_bufs_sub .., binary_bufs_sub .., nullary_bufs_sub .., unary_bufs_sub .., ternary_bufs_sub .., unary_bufs_sub ..,
    binary_bufs_sub .., nullary_bufs_sub .., unary_bufs_sub .., binary_bufs_sub .., nullary_bufs_sub .., unary_bufs_sub ..,
    ternary_bufs_sub .., binary_bufs_sub .., binary_bufs_sub .., ternary_bufs_sub .., nullary_bufs_sub .., unary_bufs_sub ..,
    ternary_bufs_sub .., unary_bufs_sub .., unary_bufs_sub .., binary_bufs_sub .., nullary_bufs_sub .., binary_bufs_sub ..,
    nullary_bufs_sub .., nullary_bufs_sub .., nullary_bufs_sub .., unary_bufs_sub .., binary_bufs_sub .., binary_bufs_sub ..,
    unary_bufs_sub .., nullary_bufs_sub .., unary_bufs_sub .., unary_bufs_sub .., ternary_bufs_sub .., binary_bufs_sub ..⟩

/-- From any memory with zero counters every weakly fair execution of @main terminates, and each buffer of each
    device ends at the fold of the operations over that device's launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## Part 2: the fold at the result buffers -/

/-- The column radius as the reference computes it: the sum over the rows of the absolute values, from the zero word. -/
def radius (e : FVec F S8192x4096 .f32) : FVec F S4096 .f32 :=
  Host.reduceAdd (Host.absf e) (constant (F := F) S_ .f32 0x00000000#32) reducesTo_S8192x4096_S4096_d0 h_S_

/-- The rows of e scaled column by column: e times the scale row broadcast down the rows. -/
def scaledRows (e : FVec F S8192x4096 .f32) (cs : FVec F S4096 .f32) : FVec F S8192x4096 .f32 :=
  mulf e (broadcastInDim S8192x4096 ![0, 1] bcast_S1x4096_S8192x4096_0_1 (broadcastInDim S1x4096 ![1] bcast_S4096_S1x4096_1 cs))

/-- The diagonal block: where row number plus zero equals column number, mu of the row (mu as a column, broadcast along
    the rows); elsewhere the zero word. -/
def diagBlock (mu : FVec F S4096 .f32) : FVec F S4096x4096 .f32 :=
  select
    (cmpi .eq (addi (iotaInDim S4096x4096 32 0) (broadcastInDim S4096x4096 ![] bcast_S_S4096x4096 (constantI S_ 32 0#32)))
      (iotaInDim S4096x4096 32 1))
    (broadcastInDim S4096x4096 ![0, 1] bcast_S4096x1_S4096x4096_0_1
      (broadcastInDim S4096x1 ![0] bcast_S4096_S4096x1_0
        (pad S4096 ![0] ![0] ![0] mu (constant (F := F) S_ .f32 0x00000000#32) pads_S4096_S4096_000 h_S_)))
    (broadcastInDim S4096x4096 ![] bcast_S_S4096x4096 (constant (F := F) S_ .f32 0x00000000#32))

/-- The scaled rows above the diagonal block. -/
def stacked (a : FVec F S8192x4096 .f32) (b : FVec F S4096x4096 .f32) : FVec F S12288x4096 .f32 :=
  concatenate S12288x4096 0 [⟨S8192x4096, a⟩, ⟨S4096x4096, b⟩] concatenates_S8192x4096_S4096x4096_S12288x4096_d0

set_option maxRecDepth 8192 in
set_option maxHeartbeats 2000000 in
/-- After the first fifty-three operations the new centre's buffer holds the shared chain's new centre of the centre and
    the radius. -/
theorem init_v22 (V : Valuation τ sig (Elt F)) :
    after opsInit V (main_v22 : DevRef τ sig)
      = Cert.Spec.newCenter (V (main_arg0 : DevRef τ sig)) (radius (V (main_arg1 : DevRef τ sig))) := by
  simp only [Cert.Spec.newCenter, Cert.Spec.act, Cert.Spec.slope, Cert.Spec.mu, Cert.Spec.cross, Cert.Spec.ub, Cert.Spec.lb,
    Cert.Spec.splat, radius]
  after_results_simp
  rfl

set_option maxRecDepth 8192 in
set_option maxHeartbeats 2000000 in
/-- … the scaled rows' buffer holds e scaled by the shared chain's column scale. -/
theorem init_v26 (V : Valuation τ sig (Elt F)) :
    after opsInit V (main_v26 : DevRef τ sig)
      = scaledRows (V (main_arg1 : DevRef τ sig))
          (Cert.Spec.colScale (V (main_arg0 : DevRef τ sig)) (radius (V (main_arg1 : DevRef τ sig)))) := by
  simp only [scaledRows, Cert.Spec.colScale, Cert.Spec.act, Cert.Spec.slope, Cert.Spec.cross, Cert.Spec.ub, Cert.Spec.lb,
    Cert.Spec.splat, radius]
  after_results_simp
  rfl

set_option maxRecDepth 8192 in
set_option maxHeartbeats 2000000 in
/-- … and the diagonal block's buffer holds the diagonal block of the shared chain's mu. -/
theorem init_v27 (V : Valuation τ sig (Elt F)) :
    after opsInit V (main_v27 : DevRef τ sig)
      = diagBlock (Cert.Spec.mu (V (main_arg0 : DevRef τ sig)) (radius (V (main_arg1 : DevRef τ sig)))) := by
  simp only [diagBlock, Cert.Spec.mu, Cert.Spec.slope, Cert.Spec.cross, Cert.Spec.ub, Cert.Spec.lb,
    Cert.Spec.splat, radius]
  after_results_simp
  rfl

set_option maxRecDepth 8192 in
set_option maxHeartbeats 2000000 in
theorem v22_eq (V : Valuation τ sig (Elt F)) :
    after ops V (main_v22 : DevRef τ sig)
      = Cert.Spec.newCenter (V (main_arg0 : DevRef τ sig)) (radius (V (main_arg1 : DevRef τ sig))) := by
  rw [ops_eq, after_snoc, binary_result_ne _ _ _ _ _ _ _ _ (show main_v22 ≠ main_v28 by decide)]
  exact init_v22 V

set_option maxRecDepth 8192 in
set_option maxHeartbeats 2000000 in
theorem v28_eq (V : Valuation τ sig (Elt F)) :
    after ops V (main_v28 : DevRef τ sig)
      = stacked
          (scaledRows (V (main_arg1 : DevRef τ sig))
            (Cert.Spec.colScale (V (main_arg0 : DevRef τ sig)) (radius (V (main_arg1 : DevRef τ sig)))))
          (diagBlock (Cert.Spec.mu (V (main_arg0 : DevRef τ sig)) (radius (V (main_arg1 : DevRef τ sig))))) := by
  rw [ops_eq, after_snoc, binary_result, init_v26, init_v27]
  rfl

set_option maxRecDepth 8192 in
set_option maxHeartbeats 2000000 in
theorem arg0_eq (V : Valuation τ sig (Elt F)) :
    after ops V (main_arg0 : DevRef τ sig) = V (main_arg0 : DevRef τ sig) := by
  after_results_simp

set_option maxRecDepth 8192 in
set_option maxHeartbeats 2000000 in
theorem arg1_eq (V : Valuation τ sig (Elt F)) :
    after ops V (main_arg1 : DevRef τ sig) = V (main_arg1 : DevRef τ sig) := by
  after_results_simp

/-! ## Part 3: index by index, at the extended reals -/

section AtIdeal

open ValueIdx

/-- The row axis of the 8192 x 4096 matrix is the one summed away. -/
theorem reduces0 : S8192x4096.Reduces [0] S4096 := by decide

/-- Column j with row k inserted is the matrix index (k, j). -/
theorem lift_eq (j : S4096.Idx) (k : Fin 8192) : reduces0.lift j k = ix2 k (j 0) := by
  funext a
  match a with
  | ⟨0, _⟩ => exact Fin.ext rfl
  | ⟨1, _⟩ => exact Fin.ext rfl

/-- The radius the reference computes is, column by column, the zero word plus the sum over the rows of |e_ij|. -/
theorem radius_eq_apt (e : FVec Ideal S8192x4096 .f32) : radius e = Cert.Spec.apt e := by
  funext j
  unfold radius
  rw [hostReduceAdd_apply, Ideal.hostReduceAdd_single reducesTo_S8192x4096_S4096_d0 reduces0]
  show Ideal.ofBits .f32 0x00000000#32 + ∑ k : Fin 8192, max (e (reduces0.lift j k)) (-(e (reduces0.lift j k)))
    = Ideal.ofBits .f32 0x00000000#32 + ∑ i : Fin 8192, max (e (ix2 i (j 0))) (-(e (ix2 i (j 0))))
  simp only [lift_eq]
  rfl

/-- The scaled rows at (r, c): e_rc times the scale of column c. -/
theorem scaledRows_apply (e : FVec Ideal S8192x4096 .f32) (cs : FVec Ideal S4096 .f32) (r : Fin 8192) (c : Fin 4096) :
    scaledRows e cs (ix2 r c) = e (ix2 r c) * cs (ix1 c) := by
  unfold scaledRows
  rw [mulf_apply, broadcastInDim_oneRow_apply]
  congr 1
  exact broadcastInDim_apply ![1] bcast_S4096_S1x4096_1 cs (ix2 (0 : Fin 1) c) (ix1 c)
    (fun a => by match a with | ⟨0, _⟩ => rfl)

/-- Two coordinates below 4096 are equal as 32-bit words, the first with the zero word added, exactly when they are equal. -/
theorem ofNat32_add_zero_eq_iff {a b : Nat} (ha : a < 4096) (hb : b < 4096) :
    BitVec.ofNat 32 a + 0#32 = BitVec.ofNat 32 b ↔ a = b := by
  rw [BitVec.add_zero]
  constructor
  · intro h
    have ht := congrArg BitVec.toNat h
    simp only [BitVec.toNat_ofNat] at ht
    omega
  · rintro rfl; rfl

/-- The diagonal block's condition at (r, c): set exactly on the diagonal. -/
theorem diagCond_apply (r c : Fin 4096) :
    (cmpi .eq (addi (iotaInDim S4096x4096 32 0) (broadcastInDim S4096x4096 ![] bcast_S_S4096x4096 (constantI S_ 32 0#32)))
      (iotaInDim S4096x4096 32 1)) (ix2 r c) = if r.val = c.val then 1#1 else 0#1 := by
  show BitVec.ofBool (BitVec.ofNat 32 r.val + 0#32 == BitVec.ofNat 32 c.val) = _
  by_cases h : r.val = c.val
  · rw [if_pos h, (ofNat32_add_zero_eq_iff r.isLt c.isLt).mpr h]; simp
  · rw [if_neg h]
    have hne : ¬ (BitVec.ofNat 32 r.val + 0#32 = BitVec.ofNat 32 c.val) :=
      fun e => h ((ofNat32_add_zero_eq_iff r.isLt c.isLt).mp e)
    have hb : (BitVec.ofNat 32 r.val + 0#32 == BitVec.ofNat 32 c.val) = false := by
      rw [beq_eq_false_iff_ne]; exact hne
    rw [hb]; rfl

/-- The diagonal block at (r, c): mu_r on the diagonal, the zero word elsewhere. -/
theorem diagBlock_apply (mu : FVec Ideal S4096 .f32) (r c : Fin 4096) :
    diagBlock mu (ix2 r c) = if r.val = c.val then mu (ix1 r) else Ideal.ofBits .f32 0x00000000#32 := by
  unfold diagBlock
  rw [select_apply, diagCond_apply]
  by_cases h : r.val = c.val
  · rw [if_pos h, if_pos h, select_one]
    refine (broadcastInDim_apply ![0, 1] bcast_S4096x1_S4096x4096_0_1 _ (ix2 r c) (ix2 r (0 : Fin 1))
      (fun a => by match a with | ⟨0, _⟩ => rfl | ⟨1, _⟩ => rfl)).trans ?_
    refine (broadcastInDim_apply ![0] bcast_S4096_S4096x1_0 _ (ix2 r (0 : Fin 1)) (ix1 r)
      (fun a => by match a with | ⟨0, _⟩ => rfl)).trans ?_
    exact pad_apply_of_inside ![0] ![0] ![0] mu _ pads_S4096_S4096_000 h_S_ (ix1 r) (ix1 r)
      (fun a => by match a with | ⟨0, _⟩ => show r.val = 0 + r.val * (0 + 1); omega)
  · rw [if_neg h, if_neg h, select_zero]
    rfl

/-- The concatenation read in its first 8192 rows: the first piece. -/
theorem stacked_top {α : Type} (a : S8192x4096.Idx → α) (b : S4096x4096.Idx → α) (r : Fin 12288) (c : Fin 4096)
    (h : r.val < 8192) :
    concatenate S12288x4096 0 [⟨S8192x4096, a⟩, ⟨S4096x4096, b⟩] concatenates_S8192x4096_S4096x4096_S12288x4096_d0 (ix2 r c)
      = a (ix2 ⟨r.val, h⟩ c) :=
  concatenate_pair_apply_left (t := S12288x4096) (s₁ := S8192x4096) (s₂ := S4096x4096) (0 : Fin 2) a b
    concatenates_S8192x4096_S4096x4096_S12288x4096_d0 (ix2 r c) rfl (ix2 ⟨r.val, h⟩ c)
    (fun d => by match d with | ⟨0, _⟩ => rfl | ⟨1, _⟩ => rfl)

set_option maxRecDepth 8192 in
/-- The concatenation read in its last 4096 rows: the second piece, 8192 rows up. -/
theorem stacked_bottom {α : Type} (a : S8192x4096.Idx → α) (b : S4096x4096.Idx → α) (r : Fin 12288) (c : Fin 4096)
    (hr : r.val - 8192 < 4096) (h : 8192 ≤ r.val) :
    concatenate S12288x4096 0 [⟨S8192x4096, a⟩, ⟨S4096x4096, b⟩] concatenates_S8192x4096_S4096x4096_S12288x4096_d0 (ix2 r c)
      = b (ix2 ⟨r.val - 8192, hr⟩ c) :=
  concatenate_pair_apply_right (t := S12288x4096) (s₁ := S8192x4096) (s₂ := S4096x4096) (0 : Fin 2) a b
    concatenates_S8192x4096_S4096x4096_S12288x4096_d0 (ix2 r c) rfl rfl (ix2 ⟨r.val - 8192, hr⟩ c)
    (fun d hd => by
      have h2 : d.val < 2 := d.isLt
      have h0 : d.val ≠ 0 := fun e => hd (Fin.ext e)
      have h1 : d = (1 : Fin 2) := Fin.ext (show d.val = 1 by omega)
      subst h1
      rfl)
    (show r.val - 8192 + 8192 = r.val by omega)

/-- The concatenation is the new generator matrix: its first 8192 rows the scaled rows, its last 4096 the diagonal of mu. -/
theorem stacked_eq_newErr (e : FVec Ideal S8192x4096 .f32) (cs mu : FVec Ideal S4096 .f32) :
    stacked (scaledRows e cs) (diagBlock mu) = Cert.Spec.newErr e cs mu := by
  funext k
  obtain ⟨r, c, rfl⟩ : ∃ (r : Fin 12288) (c : Fin 4096), k = ix2 r c := ⟨k 0, k 1, eq_ix2 k⟩
  unfold stacked
  by_cases h : r.val < 8192
  · have hR : Cert.Spec.newErr e cs mu (ix2 r c) = e (ix2 ⟨r.val, h⟩ c) * cs (ix1 c) := dif_pos h
    rw [hR, stacked_top _ _ r c h, scaledRows_apply]
  · have hR : Cert.Spec.newErr e cs mu (ix2 r c)
        = if c.val + 8192 = r.val then mu (ix1 c) else Ideal.ofBits .f32 0x00000000#32 := dif_neg h
    have hr : r.val - 8192 < 4096 := by have := r.isLt; omega
    rw [hR, stacked_bottom _ _ r c hr (by omega), diagBlock_apply]
    by_cases hd : c.val + 8192 = r.val
    · have hrc : (⟨r.val - 8192, hr⟩ : Fin 4096).val = c.val := by show r.val - 8192 = c.val; omega
      rw [if_pos hd, if_pos hrc]
      exact congrArg mu (congrArg ix1 (Fin.ext hrc))
    · have hrc : ¬ ((⟨r.val - 8192, hr⟩ : Fin 4096).val = c.val) := by show ¬ (r.val - 8192 = c.val); omega
      rw [if_neg hd, if_neg hrc]

end AtIdeal

/-! ## The run -/

/-- From any memory with zero counters every weakly fair execution of the reference terminates, with the new centre
    and the new generator matrix at the shared chain applied to the centre and the column radius, and the arguments
    unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v22) = Cert.Spec.newCenter (m ((c.tc : Thread nD τ).loc main_arg0)) (Cert.Spec.apt (m ((c.tc : Thread nD τ).loc main_arg1)))
      ∧ r.2.mem ((c.tc : Thread nD τ).loc main_v28) = Cert.Spec.newErr (m ((c.tc : Thread nD τ).loc main_arg1))
          (Cert.Spec.colScale (m ((c.tc : Thread nD τ).loc main_arg0)) (Cert.Spec.apt (m ((c.tc : Thread nD τ).loc main_arg1))))
          (Cert.Spec.mu (m ((c.tc : Thread nD τ).loc main_arg0)) (Cert.Spec.apt (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
      ⟨(h c main_v22).trans ((v22_eq (launchContents m c)).trans (by rw [radius_eq_apt])),
       (h c main_v28).trans ((v28_eq (launchContents m c)).trans (by rw [radius_eq_apt, stacked_eq_newErr])),
       (h c main_arg0).trans (arg0_eq (launchContents m c)),
       (h c main_arg1).trans (arg1_eq (launchContents m c))⟩)
    (run_after m ρ)

end Cert.ReferenceIdeal.Hand

end
-- ==== Proof.lean ====
/-
  The certificate of the zonotope ReLU transformer: a Pallas program of two kernel regions against its jnp reference.

  Both programs take a centre c : R^4096 and a generator matrix e : R^(8192 x 4096) and return the transformed
  centre and a generator matrix of 8192 + 4096 rows. Over the extended reals both compute
      a_j   = sum_i |e_ij|                                   (the column radius)
      (c', s, mu) = the same elementwise chain applied to (c, a)   (crossing / active tests, slope, offset)
      E'    = the rows of e scaled column-wise by s, then diag(mu).
  The kernel program accumulates a over 16 row tiles in a scratch row and writes E' tile by tile, building the
  diagonal slabs by comparing column and row counters; the reference sums over all rows at once and builds the
  diagonal by comparing two iotas. Sums over the extended reals may be regrouped freely (an additive commutative
  monoid), and the two index tests pick the same entries, so the results agree entry by entry; no finiteness of
  the inputs is used. The frames are proved for both readings of the kernel program from one text, generic in
  the float instance; the ideal pass rewrote nothing, so `preserves` has no conjunct.
-/
import proofs.«176906_j7138235646107_1_alg».proof.Defs
import proofs.«176906_j7138235646107_1_alg».proof.Proof.Gen.Kernel
import proofs.«176906_j7138235646107_1_alg».proof.Proof.Gen.KernelIdeal
import proofs.«176906_j7138235646107_1_alg».proof.Proof.Gen.ReferenceIdeal
import proofs.«176906_j7138235646107_1_alg».proof.Proof.Gen.Pre_finite_inputs
import proofs.«176906_j7138235646107_1_alg».proof.Proof.K.Records
import proofs.«176906_j7138235646107_1_alg».proof.Proof.KI.Values
import proofs.«176906_j7138235646107_1_alg».proof.Proof.RefRun

noncomputable section

namespace Cert.Proof

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

/-- The reference's frame is its run with the results dropped. -/
theorem frame_ri : Cert.frame_ReferenceIdeal := fun m ρ _ =>
  (θ_run Cert.ReferenceIdeal.defs _ _).mono (fun _ h c => (h c).2.2) (Cert.ReferenceIdeal.Hand.run m ρ)

/-- Both idealized programs end with the same centre and the same generator matrix: each side's results are the
    one pair of functions of the arguments. -/
theorem algebraic : Cert.algebraic_KernelIdeal_ReferenceIdeal := by
  intro m ρ m' ρ' _ hagree
  refine ⟨_, _, Cert.KernelIdeal.Hand.value_run m ρ, ?_⟩
  refine (θ_run Cert.ReferenceIdeal.defs _ _).mono (fun r h c => ?_) (Cert.ReferenceIdeal.Hand.run m' ρ')
  obtain ⟨h1, h2, h3, h4⟩ := h c
  refine ⟨?_, ?_, h3, h4⟩
  · rw [h1, (hagree c).1, (hagree c).2]
  · rw [h2, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
